-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x4096 : Shape := ⟨2, ![512, 4096]⟩
abbrev S11008x4096 : Shape := ⟨2, ![11008, 4096]⟩
abbrev S11008 : Shape := ⟨1, ![11008]⟩
abbrev S_ : Shape := ⟨0, ![]⟩

class Facts : Prop where
  bcast_S_S512x4096 : S_.BroadcastsInDim S512x4096 (![] : Fin 0 → Fin S512x4096.rank)
  reducesTo_S512x4096_S_d0_1 : S512x4096.ReducesTo [0, 1] S_
  h_S_ : 0 < S_.numel
  bcast_S_S11008x4096 : S_.BroadcastsInDim S11008x4096 (![] : Fin 0 → Fin S11008x4096.rank)
  reducesTo_S11008x4096_S_d0_1 : S11008x4096.ReducesTo [0, 1] S_
  bcast_S_S11008 : S_.BroadcastsInDim S11008 (![] : Fin 0 → Fin S11008.rank)
  reducesTo_S11008_S_d0 : S11008.ReducesTo [0] S_

variable [Facts]

def fn_part1 {F : FTy → Type} [FloatOps F] (main_v13 : IVec S_ 1) (main_v16 : IVec S11008 1) : IVec S_ 1 :=
  let main_c_5 : IVec S_ 1 := constantI S_ 1 1#1
  let main_v17 : IVec S_ 1 := (fun x v => Host.reduce IntOp.andi x v reducesTo_S11008_S_d0 h_S_) main_v16 main_c_5
  let main_v18 : IVec S_ 1 := andi main_v13 main_v17
  main_v18

def fn {F : FTy → Type} [FloatOps F] (main_arg0 : FVec F S512x4096 .f32) (main_arg1 : FVec F S11008x4096 .f32) (main_arg2 : FVec F S11008 .f32) (main_arg3 : FVec F S11008 .f32) (main_arg4 : IVec S11008x4096 32) (main_arg5 : IVec S11008x4096 1) : IVec S_ 1 :=
  let main_v0 : FVec F S512x4096 .f32 := Host.absf main_arg0
  let main_cst : FVec F S_ .f32 := constant S_ .f32 0x7F800000#32
  let main_v1 : FVec F S512x4096 .f32 := broadcastInDim S512x4096 ![] bcast_S_S512x4096 main_cst
  let main_v2 : IVec S512x4096 1 := cmpf .olt main_v0 main_v1
  let main_c : IVec S_ 1 := constantI S_ 1 1#1
  let main_v3 : IVec S_ 1 := (fun x v => Host.reduce IntOp.andi x v reducesTo_S512x4096_S_d0_1 h_S_) main_v2 main_c
  let main_v4 : FVec F S11008x4096 .f32 := Host.absf main_arg1
  let main_cst_0 : FVec F S_ .f32 := constant S_ .f32 0x7F800000#32
  let main_v5 : FVec F S11008x4096 .f32 := broadcastInDim S11008x4096 ![] bcast_S_S11008x4096 main_cst_0
  let main_v6 : IVec S11008x4096 1 := cmpf .olt main_v4 main_v5
  let main_c_1 : IVec S_ 1 := constantI S_ 1 1#1
  let main_v7 : IVec S_ 1 := (fun x v => Host.reduce IntOp.andi x v reducesTo_S11008x4096_S_d0_1 h_S_) main_v6 main_c_1
  let main_v8 : IVec S_ 1 := andi main_v3 main_v7
  let main_v9 : FVec F S11008 .f32 := Host.absf main_arg2
  let main_cst_2 : FVec F S_ .f32 := constant S_ .f32 0x7F800000#32
  let main_v10 : FVec F S11008 .f32 := broadcastInDim S11008 ![] bcast_S_S11008 main_cst_2
  let main_v11 : IVec S11008 1 := cmpf .olt main_v9 main_v10
  let main_c_3 : IVec S_ 1 := constantI S_ 1 1#1
  let main_v12 : IVec S_ 1 := (fun x v => Host.reduce IntOp.andi x v reducesTo_S11008_S_d0 h_S_) main_v11 main_c_3
  let main_v13 : IVec S_ 1 := andi main_v8 main_v12
  let main_v14 : FVec F S11008 .f32 := Host.absf main_arg3
  let main_cst_4 : FVec F S_ .f32 := constant S_ .f32 0x7F800000#32
  let main_v15 : FVec F S11008 .f32 := broadcastInDim S11008 ![] bcast_S_S11008 main_cst_4
  let main_v16 : IVec S11008 1 := cmpf .olt main_v14 main_v15
  fn_part1 (F := F) main_v13 main_v16
-- ==== Kernel.lean ====
abbrev S512x4096 : Shape := ⟨2, ![512, 4096]⟩
abbrev S11008x4096 : Shape := ⟨2, ![11008, 4096]⟩
abbrev S11008 : Shape := ⟨1, ![11008]⟩
abbrev S128x4096 : Shape := ⟨2, ![128, 4096]⟩
abbrev S1x11008 : Shape := ⟨2, ![1, 11008]⟩
abbrev S512x11008 : Shape := ⟨2, ![512, 11008]⟩
abbrev S256x4096 : Shape := ⟨2, ![256, 4096]⟩
abbrev S1x256 : Shape := ⟨2, ![1, 256]⟩
abbrev S512x256 : Shape := ⟨2, ![512, 256]⟩

abbrev nBuf : Space → Nat
  | .hbm => 11
  | .vmem => 17
  | .smem => 0
  | _ => 0

abbrev bufTy : (tb : Table) → Fin (tcTables nBuf tb) → BufTy
  | .hbm, ⟨0, _⟩ => ⟨S512x4096, .f32⟩
  | .hbm, ⟨1, _⟩ => ⟨S11008x4096, .f32⟩
  | .hbm, ⟨2, _⟩ => ⟨S11008, .f32⟩
  | .hbm, ⟨3, _⟩ => ⟨S11008, .f32⟩
  | .hbm, ⟨4, _⟩ => ⟨S11008x4096, .i32⟩
  | .hbm, ⟨5, _⟩ => ⟨S11008x4096, .i1⟩
  | .hbm, ⟨6, _⟩ => ⟨S512x4096, .bf16⟩
  | .hbm, ⟨7, _⟩ => ⟨S1x11008, .f32⟩
  | .hbm, ⟨8, _⟩ => ⟨S1x11008, .f32⟩
  | .hbm, ⟨9, _⟩ => ⟨S11008x4096, .i32⟩
  | .hbm, ⟨10, _⟩ => ⟨S512x11008, .f32⟩
  | .local _ .vmem, ⟨0, _⟩ => ⟨S128x4096, .f32⟩
  | .local _ .vmem, ⟨1, _⟩ => ⟨S128x4096, .f32⟩
  | .local _ .vmem, ⟨2, _⟩ => ⟨S128x4096, .bf16⟩
  | .local _ .vmem, ⟨3, _⟩ => ⟨S128x4096, .bf16⟩
  | .local _ .vmem, ⟨4, _⟩ => ⟨S512x4096, .bf16⟩
  | .local _ .vmem, ⟨5, _⟩ => ⟨S256x4096, .f32⟩
  | .local _ .vmem, ⟨6, _⟩ => ⟨S256x4096, .f32⟩
  | .local _ .vmem, ⟨7, _⟩ => ⟨S256x4096, .i32⟩
  | .local _ .vmem, ⟨8, _⟩ => ⟨S256x4096, .i32⟩
  | .local _ .vmem, ⟨9, _⟩ => ⟨S256x4096, .i32⟩
  | .local _ .vmem, ⟨10, _⟩ => ⟨S256x4096, .i32⟩
  | .local _ .vmem, ⟨11, _⟩ => ⟨S1x256, .f32⟩
  | .local _ .vmem, ⟨12, _⟩ => ⟨S1x256, .f32⟩
  | .local _ .vmem, ⟨13, _⟩ => ⟨S1x256, .f32⟩
  | .local _ .vmem, ⟨14, _⟩ => ⟨S1x256, .f32⟩
  | .local _ .vmem, ⟨15, _⟩ => ⟨S512x256, .f32⟩
  | .local _ .vmem, ⟨16, _⟩ => ⟨S512x256, .f32⟩
  | _, _ => ⟨S512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg1_0 : Ref sig .tc := ⟨.vmem, 5, rfl⟩
abbrev cc1_stg1_1 : Ref sig .tc := ⟨.vmem, 6, rfl⟩
abbrev cc1_stg2_0 : Ref sig .tc := ⟨.vmem, 7, rfl⟩
abbrev cc1_stg2_1 : Ref sig .tc := ⟨.vmem, 8, rfl⟩
abbrev cc1_stg3_0 : Ref sig .tc := ⟨.vmem, 9, rfl⟩
abbrev cc1_stg3_1 : Ref sig .tc := ⟨.vmem, 10, rfl⟩
abbrev cc1_stg4_0 : Ref sig .tc := ⟨.vmem, 11, rfl⟩
abbrev cc1_stg4_1 : Ref sig .tc := ⟨.vmem, 12, rfl⟩
abbrev cc1_stg5_0 : Ref sig .tc := ⟨.vmem, 13, rfl⟩
abbrev cc1_stg5_1 : Ref sig .tc := ⟨.vmem, 14, rfl⟩
abbrev cc1_stg6_0 : Ref sig .tc := ⟨.vmem, 15, rfl⟩
abbrev cc1_stg6_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem1_0 : DmaSem sig := 5
abbrev cc1_sem1_1 : DmaSem sig := 6
abbrev cc1_sem2_0 : DmaSem sig := 7
abbrev cc1_sem2_1 : DmaSem sig := 8
abbrev cc1_sem3_0 : DmaSem sig := 9
abbrev cc1_sem3_1 : DmaSem sig := 10
abbrev cc1_sem4_0 : DmaSem sig := 11
abbrev cc1_sem4_1 : DmaSem sig := 12
abbrev cc1_sem5_0 : DmaSem sig := 13
abbrev cc1_sem5_1 : DmaSem sig := 14
abbrev cc1_sem6_0 : DmaSem sig := 15
abbrev cc1_sem6_1 : DmaSem sig := 16

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![43], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S512x4096 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S256x4096 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x4096 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x4096 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S512x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  inb_S128x4096_S128x4096_0_0 : ∀ a, (![0, 0] : Fin 2 → Nat) a + S128x4096.size a ≤ S128x4096.size a
  h_S128x4096 : 0 < S128x4096.numel
  bitsLt_bf16_f32 : FTy.bits .bf16 < FTy.bits .f32
  packedbf16_S128x4096_S128x4096_0_0 : (Rect.unit (s := S128x4096) ![0, 0] S128x4096.size inb_S128x4096_S128x4096_0_0).PackedRows (EltTy.packing .bf16)
  shapeCasts_S11008_S1x11008 : S11008.ShapeCasts S1x11008
  natLt_1_32 : 1 < 32
  inb_S256x4096_S256x4096_0_0 : ∀ a, (![0, 0] : Fin 2 → Nat) a + S256x4096.size a ≤ S256x4096.size a
  h_S256x4096 : 0 < S256x4096.numel
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  inb_S512x256_S512x256_0_0 : ∀ a, (![0, 0] : Fin 2 → Nat) a + S512x256.size a ≤ S512x256.size a
  h_S512x256 : 0 < S512x256.numel
  dot_S512x4096_S256x4096_S512x256_1_1_0_0_n_n_wf : DotDims.WF S512x4096 S256x4096 S512x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x4096.size a ≤ S512x4096.size a
  hwx0_0 : ∀ i : grid0.Coords, EltTy.bits .f32 = 32 ∨ (Rect.block (s := S512x4096) S128x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x4096.size a ≤ S512x4096.size a
  hwx0_1 : ∀ i : grid0.Coords, EltTy.bits .bf16 = 32 ∨ (Rect.block (s := S512x4096) S128x4096.size (cc0_transform_1 i) (hinb0_1 i)).WholeWords (EltTy.packing .bf16)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S512x4096.size a ≤ S512x4096.size a
  hwx1_0 : ∀ i : grid1.Coords, EltTy.bits .bf16 = 32 ∨ (Rect.block (s := S512x4096) S512x4096.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x4096.size a ≤ S11008x4096.size a
  hwx1_1 : ∀ i : grid1.Coords, EltTy.bits .f32 = 32 ∨ (Rect.block (s := S11008x4096) S256x4096.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x4096.size a ≤ S11008x4096.size a
  hwx1_2 : ∀ i : grid1.Coords, EltTy.bits .i32 = 32 ∨ (Rect.block (s := S11008x4096) S256x4096.size (cc1_transform_2 i) (hinb1_2 i)).WholeWords (EltTy.packing .i32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x4096.size a ≤ S11008x4096.size a
  hwx1_3 : ∀ i : grid1.Coords, EltTy.bits .i32 = 32 ∨ (Rect.block (s := S11008x4096) S256x4096.size (cc1_transform_3 i) (hinb1_3 i)).WholeWords (EltTy.packing .i32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x11008.size a
  hwx1_4 : ∀ i : grid1.Coords, EltTy.bits .f32 = 32 ∨ (Rect.block (s := S1x11008) S1x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x256.size a ≤ S1x11008.size a
  hwx1_5 : ∀ i : grid1.Coords, EltTy.bits .f32 = 32 ∨ (Rect.block (s := S1x11008) S1x256.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S512x256.size a ≤ S512x11008.size a
  hwx1_6 : ∀ i : grid1.Coords, EltTy.bits .f32 = 32 ∨ (Rect.block (s := S512x11008) S512x256.size (cc1_transform_6 i) (hinb1_6 i)).WholeWords (EltTy.packing .f32)

variable [Facts₀]

def dot_S512x4096_S256x4096_S512x256_1_1_0_0_n_n : DotDims S512x4096 S256x4096 S512x256 where
  lhsContracting := [1]
  rhsContracting := [1]
  lhsNonContracting := [0]
  rhsNonContracting := [0]
  lhsBatch := []
  rhsBatch := []
  wf := dot_S512x4096_S256x4096_S512x256_1_1_0_0_n_n_wf

abbrev win0_0 : Pipeline.Window sig grid0 :=
  Pipeline.Window.ofSpec (Memref.whole main_arg0) S128x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x4096.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v0) S512x4096.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S256x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S256x4096.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S256x4096.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v1) S1x256.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v2) S1x256.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v4) S512x256.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S512x4096 : Shape := ⟨2, ![512, 4096]⟩
abbrev S11008x4096 : Shape := ⟨2, ![11008, 4096]⟩
abbrev S11008 : Shape := ⟨1, ![11008]⟩
abbrev S_ : Shape := ⟨0, ![]⟩
abbrev S11008x1 : Shape := ⟨2, ![11008, 1]⟩
abbrev S4096x11008 : Shape := ⟨2, ![4096, 11008]⟩
abbrev S512x11008 : Shape := ⟨2, ![512, 11008]⟩
abbrev S1x11008 : Shape := ⟨2, ![1, 11008]⟩

abbrev nBuf : Space → Nat
  | .hbm => 92
  | .vmem => 0
  | .smem => 0
  | _ => 0

abbrev bufTy : (tb : Table) → Fin (tcTables nBuf tb) → BufTy
  | .hbm, ⟨0, _⟩ => ⟨S512x4096, .f32⟩
  | .hbm, ⟨1, _⟩ => ⟨S11008x4096, .f32⟩
  | .hbm, ⟨2, _⟩ => ⟨S11008, .f32⟩
  | .hbm, ⟨3, _⟩ => ⟨S11008, .f32⟩
  | .hbm, ⟨4, _⟩ => ⟨S11008x4096, .i32⟩
  | .hbm, ⟨5, _⟩ => ⟨S11008x4096, .i1⟩
  | .hbm, ⟨6, _⟩ => ⟨S_, .i32⟩
  | .hbm, ⟨7, _⟩ => ⟨S11008x4096, .i32⟩
  | .hbm, ⟨8, _⟩ => ⟨S11008x4096, .i32⟩
  | .hbm, ⟨9, _⟩ => ⟨S_, .i32⟩
  | .hbm, ⟨10, _⟩ => ⟨S11008x4096, .i32⟩
  | .hbm, ⟨11, _⟩ => ⟨S11008x4096, .i32⟩
  | .hbm, ⟨12, _⟩ => ⟨S_, .i32⟩
  | .hbm, ⟨13, _⟩ => ⟨S11008x4096, .i32⟩
  | .hbm, ⟨14, _⟩ => ⟨S11008x4096, .i32⟩
  | .hbm, ⟨15, _⟩ => ⟨S11008x4096, .f32⟩
  | .hbm, ⟨16, _⟩ => ⟨S_, .f32⟩
  | .hbm, ⟨17, _⟩ => ⟨S11008x4096, .f32⟩
  | .hbm, ⟨18, _⟩ => ⟨S11008x4096, .f32⟩
  | .hbm, ⟨19, _⟩ => ⟨S_, .f32⟩
  | .hbm, ⟨20, _⟩ => ⟨S11008x4096, .f32⟩
  | .hbm, ⟨21, _⟩ => ⟨S11008x4096, .f32⟩
  | .hbm, ⟨22, _⟩ => ⟨S_, .i32⟩
  | .hbm, ⟨23, _⟩ => ⟨S11008x4096, .i32⟩
  | .hbm, ⟨24, _⟩ => ⟨S11008x4096, .i32⟩
  | .hbm, ⟨25, _⟩ => ⟨S_, .i32⟩
  | .hbm, ⟨26, _⟩ => ⟨S11008x4096, .i32⟩
  | .hbm, ⟨27, _⟩ => ⟨S11008x4096, .i32⟩
  | .hbm, ⟨28, _⟩ => ⟨S11008x4096, .f32⟩
  | .hbm, ⟨29, _⟩ => ⟨S11008x4096, .f32⟩
  | .hbm, ⟨30, _⟩ => ⟨S11008x4096, .f32⟩
  | .hbm, ⟨31, _⟩ => ⟨S11008x1, .f32⟩
  | .hbm, ⟨32, _⟩ => ⟨S11008x4096, .f32⟩
  | .hbm, ⟨33, _⟩ => ⟨S11008x4096, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S512x4096, .f32⟩
  | .hbm, ⟨38, _⟩ => ⟨S512x4096, .f32⟩
  | .hbm, ⟨39, _⟩ => ⟨S_, .f32⟩
  | .hbm, ⟨40, _⟩ => ⟨S512x4096, .f32⟩
  | .hbm, ⟨41, _⟩ => ⟨S512x4096, .f32⟩
  | .hbm, ⟨42, _⟩ => ⟨S512x4096, .f32⟩
  | .hbm, ⟨43, _⟩ => ⟨S_, .f32⟩
  | .hbm, ⟨44, _⟩ => ⟨S512x4096, .f32⟩
  | .hbm, ⟨45, _⟩ => ⟨S512x4096, .i1⟩
  | .hbm, ⟨46, _⟩ => ⟨S512x4096, .f32⟩
  | .hbm, ⟨47, _⟩ => ⟨S_, .f32⟩
  | .hbm, ⟨48, _⟩ => ⟨S512x4096, .f32⟩
  | .hbm, ⟨49, _⟩ => ⟨S512x4096, .f32⟩
  | .hbm, ⟨50, _⟩ => ⟨S_, .f32⟩
  | .hbm, ⟨51, _⟩ => ⟨S512x4096, .f32⟩
  | .hbm, ⟨52, _⟩ => ⟨S512x4096, .f32⟩
  | .hbm, ⟨53, _⟩ => ⟨S512x4096, .f32⟩
  | .hbm, ⟨54, _⟩ => ⟨S512x4096, .i32⟩
  | .hbm, ⟨55, _⟩ => ⟨S_, .f32⟩
  | .hbm, ⟨56, _⟩ => ⟨S512x4096, .f32⟩
  | .hbm, ⟨57, _⟩ => ⟨S512x4096, .i1⟩
  | .hbm, ⟨58, _⟩ => ⟨S512x4096, .i32⟩
  | .hbm, ⟨59, _⟩ => ⟨S_, .i32⟩
  | .hbm, ⟨60, _⟩ => ⟨S512x4096, .i32⟩
  | .hbm, ⟨61, _⟩ => ⟨S512x4096, .i32⟩
  | .hbm, ⟨62, _⟩ => ⟨S512x4096, .i32⟩
  | .hbm, ⟨63, _⟩ => ⟨S_, .i32⟩
  | .hbm, ⟨64, _⟩ => ⟨S512x4096, .i32⟩
  | .hbm, ⟨65, _⟩ => ⟨S512x4096, .i32⟩
  | .hbm, ⟨66, _⟩ => ⟨S_, .i32⟩
  | .hbm, ⟨67, _⟩ => ⟨S512x4096, .i32⟩
  | .hbm, ⟨68, _⟩ => ⟨S512x4096, .i32⟩
  | .hbm, ⟨69, _⟩ => ⟨S_, .i32⟩
  | .hbm, ⟨70, _⟩ => ⟨S512x4096, .i32⟩
  | .hbm, ⟨71, _⟩ => ⟨S512x4096, .i32⟩
  | .hbm, ⟨72, _⟩ => ⟨S512x4096, .f32⟩
  | .hbm, ⟨73, _⟩ => ⟨S_, .f32⟩
  | .hbm, ⟨74, _⟩ => ⟨S512x4096, .f32⟩
  | .hbm, ⟨75, _⟩ => ⟨S512x4096, .f32⟩
  | .hbm, ⟨76, _⟩ => ⟨S_, .f32⟩
  | .hbm, ⟨77, _⟩ => ⟨S512x4096, .f32⟩
  | .hbm, ⟨78, _⟩ => ⟨S512x4096, .f32⟩
  | .hbm, ⟨79, _⟩ => ⟨S_, .i32⟩
  | .hbm, ⟨80, _⟩ => ⟨S512x4096, .i32⟩
  | .hbm, ⟨81, _⟩ => ⟨S512x4096, .i32⟩
  | .hbm, ⟨82, _⟩ => ⟨S_, .i32⟩
  | .hbm, ⟨83, _⟩ => ⟨S512x4096, .i32⟩
  | .hbm, ⟨84, _⟩ => ⟨S512x4096, .i32⟩
  | .hbm, ⟨85, _⟩ => ⟨S512x4096, .f32⟩
  | .hbm, ⟨86, _⟩ => ⟨S512x4096, .f32⟩
  | .hbm, ⟨87, _⟩ => ⟨S4096x11008, .f32⟩
  | .hbm, ⟨88, _⟩ => ⟨S512x11008, .f32⟩
  | .hbm, ⟨89, _⟩ => ⟨S1x11008, .f32⟩
  | .hbm, ⟨90, _⟩ => ⟨S512x11008, .f32⟩
  | .hbm, ⟨91, _⟩ => ⟨S512x11008, .f32⟩
  | _, _ => ⟨S512x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_c_1 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_c_3 : Ref sig .tc := ⟨.hbm, 22, rfl⟩
abbrev main_v11 : Ref sig .tc := ⟨.hbm, 23, rfl⟩
abbrev main_v12 : Ref sig .tc := ⟨.hbm, 24, rfl⟩
abbrev main_c_4 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_cst_6 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_v21 : Ref sig .tc := ⟨.hbm, 41, rfl⟩
abbrev main_v22 : Ref sig .tc := ⟨.hbm, 42, rfl⟩
abbrev main_cst_7 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_cst_8 : Ref sig .tc := ⟨.hbm, 47, rfl⟩
abbrev main_v26 : Ref sig .tc := ⟨.hbm, 48, rfl⟩
abbrev main_v27 : Ref sig .tc := ⟨.hbm, 49, rfl⟩
abbrev main_cst_9 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_cst_10 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_c_11 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_c_12 : Ref sig .tc := ⟨.hbm, 63, rfl⟩
abbrev main_v38 : Ref sig .tc := ⟨.hbm, 64, rfl⟩
abbrev main_v39 : Ref sig .tc := ⟨.hbm, 65, rfl⟩
abbrev main_c_13 : Ref sig .tc := ⟨.hbm, 66, rfl⟩
abbrev main_v40 : Ref sig .tc := ⟨.hbm, 67, rfl⟩
abbrev main_v41 : Ref sig .tc := ⟨.hbm, 68, rfl⟩
abbrev main_c_14 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_cst_15 : Ref sig .tc := ⟨.hbm, 73, rfl⟩
abbrev main_v45 : Ref sig .tc := ⟨.hbm, 74, rfl⟩
abbrev main_v46 : Ref sig .tc := ⟨.hbm, 75, rfl⟩
abbrev main_cst_16 : Ref sig .tc := ⟨.hbm, 76, rfl⟩
abbrev main_v47 : Ref sig .tc := ⟨.hbm, 77, rfl⟩
abbrev main_v48 : Ref sig .tc := ⟨.hbm, 78, rfl⟩
abbrev main_c_17 : Ref sig .tc := ⟨.hbm, 79, rfl⟩
abbrev main_v49 : Ref sig .tc := ⟨.hbm, 80, rfl⟩
abbrev main_v50 : Ref sig .tc := ⟨.hbm, 81, rfl⟩
abbrev main_c_18 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩

abbrev nD : Nat := 1
abbrev τ : Topo := Topo.v7x

variable {F : FTy → Type} [FloatOps F]

class Facts₀ : Prop where
  bcast_S_S11008x4096 : S_.BroadcastsInDim S11008x4096 (![] : Fin 0 → Fin S11008x4096.rank)
  bcast_S11008_S11008x1_0 : S11008.BroadcastsInDim S11008x1 (![0] : Fin 1 → Fin S11008x1.rank)
  bcast_S11008x1_S11008x4096_0_1 : S11008x1.BroadcastsInDim S11008x4096 (![0, 1] : Fin 2 → Fin S11008x4096.rank)
  bcast_S_S512x4096 : S_.BroadcastsInDim S512x4096 (![] : Fin 0 → Fin S512x4096.rank)
  natLt_1_32 : 1 < 32
  transposes_S11008x4096_S4096x11008_1_0 : S11008x4096.Transposes [1, 0] S4096x11008
  bcast_S11008_S1x11008_1 : S11008.BroadcastsInDim S1x11008 (![1] : Fin 1 → Fin S1x11008.rank)
  bcast_S1x11008_S512x11008_0_1 : S1x11008.BroadcastsInDim S512x11008 (![0, 1] : Fin 2 → Fin S512x11008.rank)
  dot_S512x4096_S4096x11008_S512x11008_1_0_0_1_n_n_wf : DotDims.WF S512x4096 S4096x11008 S512x11008 [1] [0] [0] [1] [] []

variable [Facts₀]

def dot_S512x4096_S4096x11008_S512x11008_1_0_0_1_n_n : DotDims S512x4096 S4096x11008 S512x11008 where
  lhsContracting := [1]
  rhsContracting := [0]
  lhsNonContracting := [0]
  rhsNonContracting := [1]
  lhsBatch := []
  rhsBatch := []
  wf := dot_S512x4096_S4096x11008_S512x11008_1_0_0_1_n_n_wf

class Facts : Prop extends Facts₀ where

variable [Facts]
-- ==== Proof.QSpec.lean ====
/-
  The arithmetic of the quantized linear layer, one entry at a time, on the extended reals.

  An activation x is clipped to [-M, M] with M = 1 - 2^-11, its magnitude is cut to the 2047-step grid
  (mantissa = floor(|c| * 2047 / M)), and the quantized value is (mantissa / 2047 * M) * (2 s - 1) with s = 1
  when c < 0 and s = 0 otherwise.  A packed weight word e carries a mantissa in its low eleven bits and a sign in
  bit eleven and decodes by the same formula; where the outlier mask is set the full-precision weight is taken
  instead.  The layer's entry (t, n) is (sum over k of xq(t, k) * w(n, k)) * scale(n) + bias(n).
-/
import Idealize.ShloMosaic.PureOps.Ideal
import Idealize.ShloMosaic.Lib.ValueIdx

noncomputable section

namespace Cert.QSpec

open Idealize.ShloMosaic

/-- The clip bound M = 1 - 2^-11. -/
def cM : Ideal .f32 := FloatOps.ofBits .f32 0x3F7FE000#32
/-- Its negative. -/
def cNegM : Ideal .f32 := FloatOps.ofBits .f32 0xBF7FE000#32
/-- The number of grid steps, 2047. -/
def cD : Ideal .f32 := FloatOps.ofBits .f32 0x44FFE000#32
def cZero : Ideal .f32 := FloatOps.ofBits .f32 0x00000000#32
def cOne : Ideal .f32 := FloatOps.ofBits .f32 0x3F800000#32
def cTwo : Ideal .f32 := FloatOps.ofBits .f32 0x40000000#32

/-- The activation clipped to [-M, M]. -/
def clip (x : Ideal .f32) : Ideal .f32 := FloatOps.minimumf cM (FloatOps.maximumf cNegM x)

/-- The mantissa of a clipped value, as a float: floor(|c| * 2047 / M). -/
def mant (c : Ideal .f32) : Ideal .f32 :=
  FloatOps.floor (FloatOps.divf (FloatOps.mulf (FloatOps.absf c) cD) cM)

/-- The sign flag of a clipped value, as a float: 1 below zero, else 0. -/
def sflag (c : Ideal .f32) : Ideal .f32 := Scalar.select (FloatOps.cmpf .olt c cZero) cOne cZero

/-- The magnitude a mantissa stands for: mantissa / 2047 * M. -/
def mag (mf : Ideal .f32) : Ideal .f32 := FloatOps.mulf (FloatOps.divf mf cD) cM

/-- The sign factor 2 s - 1 of a sign flag s. -/
def sfac (sf : Ideal .f32) : Ideal .f32 := FloatOps.subf (FloatOps.mulf cTwo sf) cOne

/-- The quantized activation. -/
def quant (x : Ideal .f32) : Ideal .f32 := FloatOps.mulf (mag (mant (clip x))) (sfac (sflag (clip x)))

/-- The low eleven bits of a packed word. -/
def mbits (e : BitVec 32) : BitVec 32 := IntOp.andi e 2047#32
/-- Bit eleven of a packed word. -/
def sbit (e : BitVec 32) : BitVec 32 := IntOp.andi (IntOp.shrsi .vector e 11#32) 1#32

/-- The decoded weight of a packed word. -/
def decode (e : BitVec 32) : Ideal .f32 :=
  FloatOps.mulf (mag (FloatOps.sitofp .f32 (mbits e))) (sfac (FloatOps.sitofp .f32 (sbit e)))

/-- The weight used at an entry: the full-precision one where the mask bit is set, else the decoded one. -/
def weight (mk : BitVec 1) (wf : Ideal .f32) (e : BitVec 32) : Ideal .f32 := Scalar.select mk wf (decode e)

/-! The same quantities as the plain-jnp formulation spells them: the mantissa converted to an integer, the sign
flag shifted into bit eleven and or-ed in, the word unpacked again, and the sign factor 2 s - 1 computed on integers
before it is converted. -/

/-- The packed word of a clipped value: its mantissa as an integer with the sign flag in bit eleven. -/
def pack (c : Ideal .f32) : BitVec 32 :=
  IntOp.ori (FloatOps.fptosi 32 (mant c)) (IntOp.shli .host ((FloatOps.cmpf .olt c cZero).setWidth 32) 11#32)

/-- Bit eleven of a packed word, by the host's arithmetic shift. -/
def sbitH (e : BitVec 32) : BitVec 32 := IntOp.andi (IntOp.shrsi .host e 11#32) 1#32

/-- The decoded weight with the sign factor computed on integers. -/
def decodeH (e : BitVec 32) : Ideal .f32 :=
  FloatOps.mulf (mag (FloatOps.sitofp .f32 (mbits e)))
    (FloatOps.sitofp .f32 (IntOp.subi (IntOp.muli 2#32 (sbitH e)) 1#32))

/-- The quantized activation through the packed word. -/
def quantH (x : Ideal .f32) : Ideal .f32 := decodeH (pack (clip x))

/-- The weight used at an entry, by the plain formulation. -/
def weightH (mk : BitVec 1) (wf : Ideal .f32) (e : BitVec 32) : Ideal .f32 := Scalar.select mk wf (decodeH e)

end Cert.QSpec

end
-- ==== Proof.LibTransposedRhs.lean ====
/-
  A matrix product whose right operand is contracted on its LAST axis, read at one entry on the extended reals.

  The product of an M x K left operand with an N x K right operand (no batch axis, both contracted on their second
  axis: every row of the left against every row of the right) has at entry (a, j) the value
  sum over k of left (a, k) * right (j, k).  On the extended reals a change of float format is the identity, so the
  reading holds whatever formats the operands carry, for a kernel's product accumulated into the f32 zero array and
  for the host's product alike.

  The contraction index has one axis of extent K; re-indexed by its one coordinate k, the operand indices at
  output (a, j) are (a, k) and (j, k).

  A record of dimension numbers printed with a program is DotDims.transposedRhs M K N whenever its six lists are
  [1], [1], [0], [0], [], [] (the seventh field is a proof), by reflexivity.
-/
import Idealize.ShloMosaic.PureOps.Ideal.Laws
import Idealize.ShloMosaic.Lib.ValueIdx
import Idealize.ShloMosaic.Lib.Pipeline.Value

noncomputable section

namespace Cert.LibTransposedRhs

open Idealize.ShloMosaic Idealize.ShloMosaic.ValueIdx

variable (M K N : Nat)

/-- The left operand's row coordinate at output index j is j's row. -/
theorem lhs_row (j : (⟨2, ![M, N]⟩ : Shape).Idx) (q : (DotDims.transposedRhs M K N).contr.Idx) :
    ((DotDims.transposedRhs M K N).lhsIdx j q 0).val = (j 0).val := rfl
/-- The left operand's column coordinate is the contraction index's one coordinate. -/
theorem lhs_col (j : (⟨2, ![M, N]⟩ : Shape).Idx) (q : (DotDims.transposedRhs M K N).contr.Idx) :
    ((DotDims.transposedRhs M K N).lhsIdx j q 1).val = (q ⟨0, Nat.one_pos⟩).val :=
  (DotDims.transposedRhs M K N).lhsIdx_val_of_single rfl j q
/-- The right operand's row coordinate at output index j is j's column. -/
theorem rhs_row (j : (⟨2, ![M, N]⟩ : Shape).Idx) (q : (DotDims.transposedRhs M K N).contr.Idx) :
    ((DotDims.transposedRhs M K N).rhsIdx j q 0).val = (j 1).val := rfl
/-- The right operand's column coordinate is the contraction index's one coordinate. -/
theorem rhs_col (j : (⟨2, ![M, N]⟩ : Shape).Idx) (q : (DotDims.transposedRhs M K N).contr.Idx) :
    ((DotDims.transposedRhs M K N).rhsIdx j q 1).val = (q ⟨0, Nat.one_pos⟩).val :=
  (DotDims.transposedRhs M K N).rhsIdx_val_of_single rfl j q

/-- The left operand's index at output (a, j) and contraction coordinate k is (a, k). -/
theorem lhsIdx_eq (a : Fin M) (j : Fin N) (k : Fin K) :
    (DotDims.transposedRhs M K N).lhsIdx (ix2 a j) ((contrEquiv1 (DotDims.transposedRhs M K N) K rfl rfl).symm k) = ix2 a k :=
  funext fun b => Fin.ext (by
    have hk := contrEquiv1_symm_val (DotDims.transposedRhs M K N) K rfl rfl k
    match b with
    | ⟨0, _⟩ => exact lhs_row M K N _ _
    | ⟨1, _⟩ => exact (lhs_col M K N _ _).trans hk)

/-- The right operand's index at output (a, j) and contraction coordinate k is (j, k). -/
theorem rhsIdx_eq (a : Fin M) (j : Fin N) (k : Fin K) :
    (DotDims.transposedRhs M K N).rhsIdx (ix2 a j) ((contrEquiv1 (DotDims.transposedRhs M K N) K rfl rfl).symm k) = ix2 j k :=
  funext fun b => Fin.ext (by
    have hk := contrEquiv1_symm_val (DotDims.transposedRhs M K N) K rfl rfl k
    match b with
    | ⟨0, _⟩ => exact rhs_row M K N _ _
    | ⟨1, _⟩ => exact (rhs_col M K N _ _).trans hk)

/-- A kernel's product of this kind into the zero array, operands of any formats, at entry (a, j). -/
theorem matmul_transposedRhs_zero_any {φ₁ φ₂ : FTy} (W : FVec Ideal ⟨2, ![M, K]⟩ φ₁) (X : FVec Ideal ⟨2, ![N, K]⟩ φ₂)
    (a : Fin M) (j : Fin N) :
    matmul (DotDims.transposedRhs M K N) none W X (constant ⟨2, ![M, N]⟩ .f32 0x00000000#32) (ix2 a j)
      = ∑ k : Fin K, (W (ix2 a k) : EReal) * (X (ix2 j k) : EReal) := by
  simp only [matmul]
  rw [Ideal.matmul_constant_zero_apply, ← Equiv.sum_comp (contrEquiv1 (DotDims.transposedRhs M K N) K rfl rfl).symm]
  refine Finset.sum_congr rfl fun k _ => ?_
  rw [lhsIdx_eq, rhsIdx_eq]

/-- The host's product of this kind, operands of any formats, at entry (a, j). -/
theorem dotGeneral_transposedRhs_any {φ₁ φ₂ : FTy} (W : FVec Ideal ⟨2, ![M, K]⟩ φ₁) (X : FVec Ideal ⟨2, ![N, K]⟩ φ₂)
    (a : Fin M) (j : Fin N) :
    Host.dotGeneral (DotDims.transposedRhs M K N) none W X (ix2 a j)
      = ∑ k : Fin K, (W (ix2 a k) : EReal) * (X (ix2 j k) : EReal) := by
  simp only [Host.dotGeneral]
  rw [Ideal.dotGeneral_apply, ← Equiv.sum_comp (contrEquiv1 (DotDims.transposedRhs M K N) K rfl rfl).symm]
  refine Finset.sum_congr rfl fun k _ => ?_
  rw [lhsIdx_eq, rhsIdx_eq]

end Cert.LibTransposedRhs

end
-- ==== Proof.Pay1.lean ====
/-
  The second region's stored value at an entry.

  The body decodes a 256 x 4096 tile of packed weights, takes the full-precision weight where the mask word is
  nonzero, multiplies the 512 x 4096 quantized activations by that tile contracted on the 4096 axis (a product
  into the zero array: at entry (p, q) the sum over k of activation (p, k) times weight (q, k)), then multiplies
  column q by the scale entry q and adds the bias entry q.
-/
import proofs.«423731_j18683107737694_3_alg».proof.Proof.Gen.KernelIdeal.Skeleton
import proofs.«423731_j18683107737694_3_alg».proof.Proof.QSpec
import proofs.«423731_j18683107737694_3_alg».proof.Proof.LibTransposedRhs
import Idealize.ShloMosaic.Lib.ValueIdx
import Idealize.ShloMosaic.Lib.ValueLayout
import Idealize.ShloMosaic.Lib.Pipeline.Value

noncomputable section

namespace Cert.KernelIdeal.Pay1

open Cert.KernelIdeal Cert.KernelIdeal.Gen Cert.QSpec
open Idealize.ShloMosaic Idealize.ShloMosaic.ValueIdx

/-- The weight tile the body multiplies by: at each entry the full-precision weight where the mask word is nonzero,
    else the decoded packed word. -/
def wtile (v0 : Vec Ideal S256x4096 .i32) (v18 : Vec Ideal S256x4096 .f32) (v19 : Vec Ideal S256x4096 .i32) :
    FVec Ideal S256x4096 .bf16 :=
  fun y => Scalar.select (IntOp.cmpi .ne (v19 y) 0#32) (v18 y) (decode (v0 y))

/-- The body's stored value is the product with that tile, scaled and shifted column by column. -/
theorem pay_eq (v0 : Vec Ideal S256x4096 .i32) (v18 : Vec Ideal S256x4096 .f32) (v19 : Vec Ideal S256x4096 .i32)
    (v23 : Vec Ideal S512x4096 .bf16) (v26 v30 : Vec Ideal S1x256 .f32) :
    k1_pay1 (F := Ideal) v0 v18 v19 v23 v26 v30
      = addf (mulf (matmul (φ₁ := .bf16) (φ₂ := .bf16) (DotDims.transposedRhs 512 4096 256) none (shapeCast S512x4096 v23 shapeCasts_S512x4096_S512x4096)
            (wtile v0 v18 v19) (constant S512x256 .f32 0x00000000#32))
          (broadcastTo S512x256 (shapeCast S1x256 v26 shapeCasts_S1x256_S1x256) broadcasts_S1x256_S512x256))
        (broadcastTo S512x256 (shapeCast S1x256 v30 shapeCasts_S1x256_S1x256) broadcasts_S1x256_S512x256) := rfl

/-- The stored value at entry (p, q). -/
theorem pay_apply (v0 : Vec Ideal S256x4096 .i32) (v18 : Vec Ideal S256x4096 .f32) (v19 : Vec Ideal S256x4096 .i32)
    (v23 : Vec Ideal S512x4096 .bf16) (v26 v30 : Vec Ideal S1x256 .f32) (p : Fin 512) (q : Fin 256) :
    k1_pay1 (F := Ideal) v0 v18 v19 v23 v26 v30 (ix2 p q)
      = (∑ k : Fin 4096, (v23 (ix2 p k) : EReal) * (wtile v0 v18 v19 (ix2 q k) : EReal)) * (v26 (ix2 (0 : Fin 1) q) : EReal)
        + (v30 (ix2 (0 : Fin 1) q) : EReal) := by
  rw [pay_eq]
  show (matmul (φ₁ := .bf16) (φ₂ := .bf16) (DotDims.transposedRhs 512 4096 256) none (shapeCast S512x4096 v23 shapeCasts_S512x4096_S512x4096)
            (wtile v0 v18 v19) (constant S512x256 .f32 0x00000000#32) (ix2 p q) : EReal)
          * (broadcastTo S512x256 (shapeCast S1x256 v26 shapeCasts_S1x256_S1x256) broadcasts_S1x256_S512x256 (ix2 p q) : EReal)
        + (broadcastTo S512x256 (shapeCast S1x256 v30 shapeCasts_S1x256_S1x256) broadcasts_S1x256_S512x256 (ix2 p q) : EReal) = _
  rw [shapeCast_self, shapeCast_self, shapeCast_self,
    Cert.LibTransposedRhs.matmul_transposedRhs_zero_any 512 4096 256 v23 (wtile v0 v18 v19) p q,
    broadcastTo_1b_ab_apply, broadcastTo_1b_ab_apply]

end Cert.KernelIdeal.Pay1

end
-- ==== Proof.Arr1.lean ====
/-
  The second region's array after its run: the layer's result, entry by entry.

  The region's grid has 43 points. Point t stages all of the quantized activations (512 x 4096), rows
  256 t .. 256 t + 255 of the full-precision weights, of the packed weights and of the widened mask, and columns
  256 t .. 256 t + 255 of the scale row and of the bias row; its body's 512 x 256 result is written back to the
  same columns of the result array. The 43 column blocks tile the 11008 columns, so after the run entry (p, n) of the
  result array is (sum over k of activation (p, k) * weight (n, k)) * scale n + bias n, with weight (n, k) the
  full-precision weight where the mask word is nonzero and the decoded packed word elsewhere -- whatever the buffer
  contents the region is entered with.
-/
import proofs.«423731_j18683107737694_3_alg».proof.Proof.Gen.KernelIdeal.Frame
import proofs.«423731_j18683107737694_3_alg».proof.Proof.Pay1
import Idealize.ShloMosaic.Lib.Pipeline.Value

set_option maxRecDepth 16384

noncomputable section

namespace Cert.KernelIdeal.Arr1

open Cert.KernelIdeal Cert.KernelIdeal.Gen Cert.QSpec Cert.KernelIdeal.Pay1
open Idealize.ShloMosaic Idealize.ShloMosaic.TcCoe Idealize.SL.Sem Idealize.ShloMosaic.ValueIdx
open Idealize.ShloMosaic.Pipeline (Dat Cfg Window)

theorem hz : (![0, 0] : Fin 2 → Nat) = fun _ => 0 := funext fun a => by fin_cases a <;> rfl

/-- The weight the body uses at row n, column k: the full-precision one where the mask word is nonzero, else the
    decoded packed word. -/
def wsel (wf : Vec Ideal S11008x4096 .f32) (enc mk : Vec Ideal S11008x4096 .i32) (n : Fin 11008) (k : Fin 4096) : EReal :=
  Scalar.select (IntOp.cmpi .ne (mk (ix2 n k)) 0#32) (wf (ix2 n k)) (decode (enc (ix2 n k)))

/-- The layer's entry (p, n). -/
def outAt (xq : Vec Ideal S512x4096 .bf16) (wf : Vec Ideal S11008x4096 .f32) (enc mk : Vec Ideal S11008x4096 .i32)
    (sc bi : Vec Ideal S1x11008 .f32) (p : Fin 512) (n : Fin 11008) : EReal :=
  (∑ k : Fin 4096, (xq (ix2 p k) : EReal) * wsel wf enc mk n k) * (sc (ix2 (0 : Fin 1) n) : EReal) + (bi (ix2 (0 : Fin 1) n) : EReal)

/-- The layer's result array. -/
def OUT (xq : Vec Ideal S512x4096 .bf16) (wf : Vec Ideal S11008x4096 .f32) (enc mk : Vec Ideal S11008x4096 .i32)
    (sc bi : Vec Ideal S1x11008 .f32) : Vec Ideal S512x11008 .f32 :=
  fun i => outAt xq wf enc mk sc bi ⟨(i 0).val, idx2_lt0 i⟩ ⟨(i 1).val, idx2_lt1 i⟩

/-- The printed index maps over the grid: the activations' block never moves; the three weight-side windows step
    through row blocks; the scale, the bias and the result step through column blocks. -/
theorem idx_facts : ∀ t : Fin cfg1.N,
    win1_0.index t (0 : Fin 2) = 0 ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = 0 ∧ win1_4.index t (1 : Fin 2) = t.val
    ∧ win1_5.index t (0 : Fin 2) = 0 ∧ win1_5.index t (1 : Fin 2) = t.val
    ∧ win1_6.index t (0 : Fin 2) = 0 ∧ win1_6.index t (1 : Fin 2) = t.val :=
  (by decide +kernel : ∀ t : Fin grid1.N, _)

/-- Row (or column) 256 t + q of the long axis. -/
def row (t : Fin cfg1.N) (q : Fin 256) : Fin 11008 := ⟨t.val * 256 + q.val, by have := t.isLt; have := q.isLt; show _ < 11008; have h : t.val < 43 := t.isLt; omega⟩

/-- The body's stored value at entry (p, q) of a block is the layer's entry (p, n) of whole arrays whose entries the
    blocks hold: row q of each weight-side block being row n of its array, column q of the scale and bias blocks
    column n of their rows, and the activations' block the whole array. -/
theorem entry_eq (x0 : Vec Ideal S512x4096 .bf16) (x1 : Vec Ideal S256x4096 .f32) (x2 x3 : Vec Ideal S256x4096 .i32)
    (x4 x5 : Vec Ideal S1x256 .f32)
    (A0 : Vec Ideal S512x4096 .bf16) (A1 : Vec Ideal S11008x4096 .f32) (A2 A3 : Vec Ideal S11008x4096 .i32)
    (A4 A5 : Vec Ideal S1x11008 .f32) (p : Fin 512) (q : Fin 256) (n : Fin 11008)
    (h0 : ∀ k : Fin 4096, x0 (ix2 p k) = A0 (ix2 p k)) (h1 : ∀ k : Fin 4096, x1 (ix2 q k) = A1 (ix2 n k))
    (h2 : ∀ k : Fin 4096, x2 (ix2 q k) = A2 (ix2 n k)) (h3 : ∀ k : Fin 4096, x3 (ix2 q k) = A3 (ix2 n k))
    (h4 : x4 (ix2 (0 : Fin 1) q) = A4 (ix2 (0 : Fin 1) n)) (h5 : x5 (ix2 (0 : Fin 1) q) = A5 (ix2 (0 : Fin 1) n)) :
    k1_pay1 (F := Ideal) x2 x1 x3 x0 x4 x5 (ix2 p q) = outAt A0 A1 A2 A3 A4 A5 p n := by
  rw [pay_apply]
  unfold outAt wsel wtile
  rw [h4, h5]
  simp only [h0, h1, h2, h3]

variable (V : (c : Dev nD) → (b : Ref sig .tc) → Buf (Elt Ideal) ((c : Thread nD τ).loc b))

/-- The six input blocks at a point, each at its literal type. -/
abbrev b0 (c : Dev nD) (t : Fin cfg1.N) : Vec Ideal S512x4096 .bf16 := iblk1 V c 0 t
abbrev b1 (c : Dev nD) (t : Fin cfg1.N) : Vec Ideal S256x4096 .f32 := iblk1 V c 1 t
abbrev b2 (c : Dev nD) (t : Fin cfg1.N) : Vec Ideal S256x4096 .i32 := iblk1 V c 2 t
abbrev b3 (c : Dev nD) (t : Fin cfg1.N) : Vec Ideal S256x4096 .i32 := iblk1 V c 3 t
abbrev b4 (c : Dev nD) (t : Fin cfg1.N) : Vec Ideal S1x256 .f32 := iblk1 V c 4 t
abbrev b5 (c : Dev nD) (t : Fin cfg1.N) : Vec Ideal S1x256 .f32 := iblk1 V c 5 t

/-- The activations' block is the whole array. -/
theorem rd0 (c : Dev nD) (t : Fin cfg1.N) (p : Fin 512) (k : Fin 4096) : b0 V c t (ix2 p k) = V c main_v0 (ix2 p k) := by
  obtain ⟨e00, e01, -⟩ := idx_facts t
  show V c main_v0 (((cfg1.win 0).blk t).view.emb (ix2 p k)) = V c main_v0 (ix2 p k)
  refine congrArg (V c main_v0) (funext fun a => Fin.ext ?_)
  match a with
  | ⟨0, _⟩ => show win1_0.index t (0 : Fin 2) * 512 + 1 * p.val = p.val; omega
  | ⟨1, _⟩ => show win1_0.index t (1 : Fin 2) * 4096 + 1 * k.val = k.val; omega

/-- Row q of the full-precision weights' block is row 256 t + q of the array. -/
theorem rd1 (c : Dev nD) (t : Fin cfg1.N) (q : Fin 256) (k : Fin 4096) : b1 V c t (ix2 q k) = V c main_arg1 (ix2 (row t q) k) := by
  obtain ⟨-, -, e10, e11, -⟩ := idx_facts t
  show V c main_arg1 (((cfg1.win 1).blk t).view.emb (ix2 q k)) = V c main_arg1 (ix2 (row t q) k)
  refine congrArg (V c main_arg1) (funext fun a => Fin.ext ?_)
  match a with
  | ⟨0, _⟩ => show win1_1.index t (0 : Fin 2) * 256 + 1 * q.val = t.val * 256 + q.val; omega
  | ⟨1, _⟩ => show win1_1.index t (1 : Fin 2) * 4096 + 1 * k.val = k.val; omega

/-- Row q of the packed weights' block is row 256 t + q of the array. -/
theorem rd2 (c : Dev nD) (t : Fin cfg1.N) (q : Fin 256) (k : Fin 4096) : b2 V c t (ix2 q k) = V c main_arg4 (ix2 (row t q) k) := by
  obtain ⟨-, -, -, -, e20, e21, -⟩ := idx_facts t
  show V c main_arg4 (((cfg1.win 2).blk t).view.emb (ix2 q k)) = V c main_arg4 (ix2 (row t q) k)
  refine congrArg (V c main_arg4) (funext fun a => Fin.ext ?_)
  match a with
  | ⟨0, _⟩ => show win1_2.index t (0 : Fin 2) * 256 + 1 * q.val = t.val * 256 + q.val; omega
  | ⟨1, _⟩ => show win1_2.index t (1 : Fin 2) * 4096 + 1 * k.val = k.val; omega

/-- Row q of the widened mask's block is row 256 t + q of the array. -/
theorem rd3 (c : Dev nD) (t : Fin cfg1.N) (q : Fin 256) (k : Fin 4096) : b3 V c t (ix2 q k) = V c main_v3 (ix2 (row t q) k) := by
  obtain ⟨-, -, -, -, -, -, e30, e31, -⟩ := idx_facts t
  show V c main_v3 (((cfg1.win 3).blk t).view.emb (ix2 q k)) = V c main_v3 (ix2 (row t q) k)
  refine congrArg (V c main_v3) (funext fun a => Fin.ext ?_)
  match a with
  | ⟨0, _⟩ => show win1_3.index t (0 : Fin 2) * 256 + 1 * q.val = t.val * 256 + q.val; omega
  | ⟨1, _⟩ => show win1_3.index t (1 : Fin 2) * 4096 + 1 * k.val = k.val; omega

/-- Column q of the scale row's block is column 256 t + q of the row. -/
theorem rd4 (c : Dev nD) (t : Fin cfg1.N) (q : Fin 256) : b4 V c t (ix2 (0 : Fin 1) q) = V c main_v1 (ix2 (0 : Fin 1) (row t q)) := by
  obtain ⟨-, -, -, -, -, -, -, -, e40, e41, -⟩ := idx_facts t
  show V c main_v1 (((cfg1.win 4).blk t).view.emb (ix2 (0 : Fin 1) q)) = V c main_v1 (ix2 (0 : Fin 1) (row t q))
  refine congrArg (V c main_v1) (funext fun a => Fin.ext ?_)
  match a with
  | ⟨0, _⟩ => show win1_4.index t (0 : Fin 2) * 1 + 1 * 0 = 0; omega
  | ⟨1, _⟩ => show win1_4.index t (1 : Fin 2) * 256 + 1 * q.val = t.val * 256 + q.val; omega

/-- Column q of the bias row's block is column 256 t + q of the row. -/
theorem rd5 (c : Dev nD) (t : Fin cfg1.N) (q : Fin 256) : b5 V c t (ix2 (0 : Fin 1) q) = V c main_v2 (ix2 (0 : Fin 1) (row t q)) := by
  obtain ⟨-, -, -, -, -, -, -, -, -, -, e50, e51, -⟩ := idx_facts t
  show V c main_v2 (((cfg1.win 5).blk t).view.emb (ix2 (0 : Fin 1) q)) = V c main_v2 (ix2 (0 : Fin 1) (row t q))
  refine congrArg (V c main_v2) (funext fun a => Fin.ext ?_)
  match a with
  | ⟨0, _⟩ => show win1_5.index t (0 : Fin 2) * 1 + 1 * 0 = 0; omega
  | ⟨1, _⟩ => show win1_5.index t (1 : Fin 2) * 256 + 1 * q.val = t.val * 256 + q.val; omega

/-- What point t writes back is block t of the layer's result. -/
theorem flushed_eq (c : Dev nD) (t : Fin cfg1.N) :
    (dat1 V c).flushed 6 t = ((cfg1.win 6).blk t).view.read (Elt Ideal)
      (OUT (V c main_v0) (V c main_arg1) (V c main_arg4) (V c main_v3) (V c main_v1) (V c main_v2)) := by
  show (cfg1.win 6).cut (grid1.coords t) ((dat1 V c).after 6 t) = _
  rw [after1_6]
  unfold out1_6
  rw [View.canon_unit_zero hz]
  simp only [View.ld_unit_zero (S := S256x4096) hz, View.ld_unit_zero (S := S512x4096) hz, View.ld_unit_zero (S := S1x256) hz]
  obtain ⟨-, -, -, -, -, -, -, -, -, -, -, -, e60, e61⟩ := idx_facts t
  funext j
  obtain ⟨p, q, rfl⟩ : ∃ (p : Fin 512) (q : Fin 256), j = ix2 p q := ⟨j 0, j 1, eq_ix2 j⟩
  refine (entry_eq (b0 V c t) (b1 V c t) (b2 V c t) (b3 V c t) (b4 V c t) (b5 V c t)
    (V c main_v0) (V c main_arg1) (V c main_arg4) (V c main_v3) (V c main_v1) (V c main_v2) p q (row t q)
    (rd0 V c t p) (rd1 V c t q) (rd2 V c t q) (rd3 V c t q) (rd4 V c t q) (rd5 V c t q)).trans ?_
  have hemb : ((cfg1.win 6).blk t).view.emb (ix2 p q) = (ix2 p (row t q) : S512x11008.Idx) := by
    funext a; apply Fin.ext
    match a with
    | ⟨0, _⟩ => show win1_6.index t (0 : Fin 2) * 512 + 1 * p.val = p.val; omega
    | ⟨1, _⟩ => show win1_6.index t (1 : Fin 2) * 256 + 1 * q.val = t.val * 256 + q.val; omega
  show _ = OUT (V c main_v0) (V c main_arg1) (V c main_arg4) (V c main_v3) (V c main_v1) (V c main_v2) (((cfg1.win 6).blk t).view.emb (ix2 p q))
  rw [hemb]
  rfl

/-- An entry lies in point t's block of the result array iff each coordinate lies in the block's range. -/
theorem mem_blk (t : Fin cfg1.N) (i : S512x11008.Idx) :
    i ∈ ((cfg1.win 6).blk t).view.set ↔ ∀ a : Fin 2, win1_6.index t a * S512x256.size a ≤ (i a).val ∧ (i a).val < win1_6.index t a * S512x256.size a + S512x256.size a := by
  show i ∈ ((View.whole main_v4).slice (win1_6.rect t)).set ↔ _
  rw [View.set_slice_whole, Rect.mem_set_unit]
  exact Iff.rfl

/-- Every entry of the result array lies in the block of the point that holds its column. -/
theorem cover (i : S512x11008.Idx) : ∃ t : Fin cfg1.N, (cfg1.win 6).flush t = true ∧ i ∈ ((cfg1.win 6).blk t).view.set := by
  have hi0 : (i 0).val < 512 := (i 0).isLt
  have hi1 : (i 1).val < 11008 := (i 1).isLt
  let t : Fin cfg1.N := ⟨(i 1).val / 256, by show (i 1).val / 256 < 43; omega⟩
  have ht : t.val = (i 1).val / 256 := rfl
  obtain ⟨-, -, -, -, -, -, -, -, -, -, -, -, e60, e61⟩ := idx_facts t
  refine ⟨t, flush1_6 t, ?_⟩
  rw [mem_blk]
  intro a
  match a with
  | ⟨0, _⟩ => show win1_6.index t (0 : Fin 2) * 512 ≤ (i 0).val ∧ (i 0).val < win1_6.index t (0 : Fin 2) * 512 + 512; omega
  | ⟨1, _⟩ => show win1_6.index t (1 : Fin 2) * 256 ≤ (i 1).val ∧ (i 1).val < win1_6.index t (1 : Fin 2) * 256 + 256; omega

/-- After the region's run its result array holds the layer's result of the arrays the region was entered with. -/
theorem arr_eq (c : Dev nD) : (dat1 V c).arrAt 6 cfg1.N
    = OUT (V c main_v0) (V c main_arg1) (V c main_arg4) (V c main_v3) (V c main_v1) (V c main_v2) :=
  (dat1 V c).arrAt_eq_of_cover 6 _ (fun t _ => flushed_eq V c t) cover

end Cert.KernelIdeal.Arr1

end
-- ==== Proof.Arr0.lean ====
/-
  The first region's array after its run: the quantized activations, entry by entry.

  The region's grid has four points; point t stages rows 128 t .. 128 t + 127 of the activations (all 4096 columns),
  its body stores quant of every staged entry, and the block is written back to the same rows of the result array.
  The four blocks tile the 512 rows, so after the run the result array is quant of the activations at every entry,
  whatever the buffer contents the region is entered with.
-/
import proofs.«423731_j18683107737694_3_alg».proof.Proof.Gen.KernelIdeal.Frame
import proofs.«423731_j18683107737694_3_alg».proof.Proof.QSpec
import Idealize.ShloMosaic.Lib.Pipeline.Value

set_option maxRecDepth 16384

noncomputable section

namespace Cert.KernelIdeal.Arr0

open Cert.KernelIdeal Cert.KernelIdeal.Gen Cert.QSpec
open Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The quantized activations: quant at every entry. -/
def XQ (x : Vec Ideal S512x4096 .f32) : Vec Ideal S512x4096 .bf16 := fun i => quant (x i)

/-- The body's stored value at an entry is quant of the loaded entry (a change of float format is the identity). -/
theorem pay_apply (v0 : Vec Ideal S128x4096 .f32) (y : S128x4096.Idx) : k0_pay1 (F := Ideal) v0 y = quant (v0 y) := rfl

/-- Both windows' block at point t starts at row-block t, column-block 0. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- What point t writes back is block t of the quantized activations. -/
theorem flushed_eq (c : Dev nD) (t : Fin cfg0.N) :
    (dat0 V c).flushed 1 t = ((cfg0.win 1).blk t).view.read (Elt Ideal) (XQ (V c main_arg0)) := by
  show (cfg0.win 1).cut (grid0.coords t) ((dat0 V c).after 1 t) = _
  rw [after0_1]
  unfold out0_1
  rw [View.canon_unit_zero hz]
  simp only [View.ld_unit_zero (S := S128x4096) hz]
  obtain ⟨e0, e1, e2, e3⟩ := idx_facts t
  funext j
  refine (pay_apply _ _).trans ?_
  show quant (V c main_arg0 (((cfg0.win 0).blk t).view.emb j)) = quant (V c main_arg0 (((cfg0.win 1).blk t).view.emb j))
  have h0 : ((cfg0.win 0).blk t).view.emb j = ((cfg0.win 1).blk t).view.emb j := by
    funext a; apply Fin.ext
    match a with
    | ⟨0, _⟩ => show win0_0.index t (0 : Fin 2) * 128 + 1 * (j 0).val = win0_1.index t (0 : Fin 2) * 128 + 1 * (j 0).val; omega
    | ⟨1, _⟩ => show win0_0.index t (1 : Fin 2) * 4096 + 1 * (j 1).val = win0_1.index t (1 : Fin 2) * 4096 + 1 * (j 1).val; omega
  rw [h0]

/-- An entry lies in point t's block of the result array iff each coordinate lies in the block's range. -/
theorem mem_blk (t : Fin cfg0.N) (i : S512x4096.Idx) :
    i ∈ ((cfg0.win 1).blk t).view.set ↔ ∀ a : Fin 2, win0_1.index t a * S128x4096.size a ≤ (i a).val ∧ (i a).val < win0_1.index t a * S128x4096.size a + S128x4096.size a := by
  show i ∈ ((View.whole main_v0).slice (win0_1.rect t)).set ↔ _
  rw [View.set_slice_whole, Rect.mem_set_unit]
  exact Iff.rfl

/-- Every entry of the result array lies in the block of the point that holds its row. -/
theorem cover (i : S512x4096.Idx) : ∃ t : Fin cfg0.N, (cfg0.win 1).flush t = true ∧ i ∈ ((cfg0.win 1).blk t).view.set := by
  have hi0 : (i 0).val < 512 := (i 0).isLt
  have hi1 : (i 1).val < 4096 := (i 1).isLt
  let t : Fin cfg0.N := ⟨(i 0).val / 128, by show (i 0).val / 128 < 4; omega⟩
  have ht : t.val = (i 0).val / 128 := rfl
  obtain ⟨e0, e1, e2, e3⟩ := idx_facts t
  refine ⟨t, flush0_1 t, ?_⟩
  rw [mem_blk]
  intro a
  match a with
  | ⟨0, _⟩ => show win0_1.index t (0 : Fin 2) * 128 ≤ (i 0).val ∧ (i 0).val < win0_1.index t (0 : Fin 2) * 128 + 128; omega
  | ⟨1, _⟩ => show win0_1.index t (1 : Fin 2) * 4096 ≤ (i 1).val ∧ (i 1).val < win0_1.index t (1 : Fin 2) * 4096 + 4096; omega

/-- After the region's run its result array holds the quantized activations. -/
theorem arr_eq (c : Dev nD) : (dat0 V c).arrAt 1 cfg0.N = XQ (V c main_arg0) :=
  (dat0 V c).arrAt_eq_of_cover 1 (XQ (V c main_arg0)) (fun t _ => flushed_eq V c t) cover

end Cert.KernelIdeal.Arr0

end
-- ==== Proof.Between.lean ====
/-
  What the second region finds in its arrays: the buffer contents after the first region and the three host
  operations between the two.

  The first region leaves the quantized activations in its result array and touches nothing else; the host then
  recasts the scale and the bias vectors as rows and widens the mask bits to 32-bit words, writing three fresh
  arrays. So the second region finds: the quantized activations of the launch-time activations; the launch-time
  full-precision and packed weights; the mask widened entry by entry; the scale and the bias as one-row arrays.
-/
import proofs.«423731_j18683107737694_3_alg».proof.Proof.Arr0
import Idealize.ShloMosaic.Lib.StableHlo.Run
import Idealize.ShloMosaic.PureOps.Ideal

set_option maxRecDepth 16384

noncomputable section

namespace Cert.KernelIdeal.Between

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-- The quantized activations' array is not written by the host operations, and the first region leaves in it
    quant of the launch-time activations. -/
theorem V2_main_v0 (c : Dev nD) : V2 m ρ c main_v0 = Arr0.XQ (m ((c : Thread nD τ).loc main_arg0)) := by
  show StableHlo.after hostOps1 (W1 m ρ c) (Proc.devRef .tc main_v0) = _
  after_results
  exact (W1_arr m ρ c 1).trans (Arr0.arr_eq (V0 m ρ) c)

/-- The full-precision weights are as launched. -/
theorem V2_main_arg1 (c : Dev nD) : V2 m ρ c main_arg1 = m ((c : Thread nD τ).loc main_arg1) := by
  show StableHlo.after hostOps1 (W1 m ρ c) (Proc.devRef .tc main_arg1) = _
  after_results
  exact W1_of_ne m ρ c main_arg1 (by decide)

/-- The packed weights are as launched. -/
theorem V2_main_arg4 (c : Dev nD) : V2 m ρ c main_arg4 = m ((c : Thread nD τ).loc main_arg4) := by
  show StableHlo.after hostOps1 (W1 m ρ c) (Proc.devRef .tc main_arg4) = _
  after_results
  exact W1_of_ne m ρ c main_arg4 (by decide)

/-- The scale row is the launch-time scale vector recast as one row. -/
theorem V2_main_v1 (c : Dev nD) :
    V2 m ρ c main_v1 = shapeCast S1x11008 (m ((c : Thread nD τ).loc main_arg2)) shapeCasts_S11008_S1x11008 := by
  show StableHlo.after hostOps1 (W1 m ρ c) (Proc.devRef .tc main_v1) = _
  after_results
  rw [W1_of_ne m ρ c main_arg2 (by decide)]
  rfl

/-- The bias row is the launch-time bias vector recast as one row. -/
theorem V2_main_v2 (c : Dev nD) :
    V2 m ρ c main_v2 = shapeCast S1x11008 (m ((c : Thread nD τ).loc main_arg3)) shapeCasts_S11008_S1x11008 := by
  show StableHlo.after hostOps1 (W1 m ρ c) (Proc.devRef .tc main_v2) = _
  after_results
  rw [W1_of_ne m ρ c main_arg3 (by decide)]
  rfl

/-- The mask words are the launch-time mask bits widened to 32 bits. -/
theorem V2_main_v3 (c : Dev nD) : V2 m ρ c main_v3 = extui 32 (m ((c : Thread nD τ).loc main_arg5)) natLt_1_32 := by
  show StableHlo.after hostOps1 (W1 m ρ c) (Proc.devRef .tc main_v3) = _
  after_results
  rw [W1_of_ne m ρ c main_arg5 (by decide)]

end Cert.KernelIdeal.Between

end
-- ==== Proof.KernelValue.lean ====
/-
  The kernel program's run with its result named.

  The result array ends at what the second region's write-backs leave, which is the layer's result of the arrays
  that region is entered with; those are the quantized launch-time activations, the launch-time weights, the mask
  widened to words, and the scale and bias vectors as rows. So the result is ONE function of the six argument arrays.
-/
import proofs.«423731_j18683107737694_3_alg».proof.Proof.KernelRun
import proofs.«423731_j18683107737694_3_alg».proof.Proof.Arr1
import proofs.«423731_j18683107737694_3_alg».proof.Proof.Between

set_option maxRecDepth 16384

noncomputable section

namespace Cert.KernelIdeal.Value

open Cert.KernelIdeal Cert.KernelIdeal.Gen
open Idealize.ShloMosaic Idealize.ShloMosaic.TcCoe Idealize.SL.Sem

/-- The kernel program's result as a function of its argument arrays. -/
def KOUT (x0 : Vec Ideal S512x4096 .f32) (x1 : Vec Ideal S11008x4096 .f32) (x2 x3 : Vec Ideal S11008 .f32)
    (x4 : Vec Ideal S11008x4096 .i32) (x5 : Vec Ideal S11008x4096 .i1) : Vec Ideal S512x11008 .f32 :=
  Arr1.OUT (Arr0.XQ x0) x1 x4 (extui 32 x5 natLt_1_32)
    (shapeCast S1x11008 x2 shapeCasts_S11008_S1x11008) (shapeCast S1x11008 x3 shapeCasts_S11008_S1x11008)

variable (m : (ℓ : Loc nD τ sig) → Buf (Elt Ideal) ℓ) (ρ : Dev nD → PrngReg)

/-- The last boundary's contents at the result array. -/
theorem W3_main_v4 (c : Dev nD) : W3 m ρ c (Proc.devRef .tc main_v4)
    = KOUT (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (W3_arr m ρ c 6).trans ?_
  rw [Arr1.arr_eq (V2 m ρ) c, Between.V2_main_v0, Between.V2_main_arg1, Between.V2_main_arg4, Between.V2_main_v3,
    Between.V2_main_v1, Between.V2_main_v2]
  rfl

/-- Every weakly fair execution of the kernel program terminates without a fault, with the result array at KOUT of
    the launch-time arguments and the arguments unchanged. -/
theorem run : θ_run defs (onTc (τ := τ) (main (F := Ideal))) ⟨m, fun _ => 0, ρ⟩ (fun r => ∀ c : Dev nD,
      r.2.mem ((c.tc : Thread nD τ).loc main_v4)
        = KOUT (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (W3_main_v4 m ρ c), (h c).2⟩) (Cert.KernelIdeal.GenRun.run_main m ρ)

end Cert.KernelIdeal.Value

end
-- ==== Proof.RefValue.lean ====
/-
  The plain formulation's result at an entry.

  Read one operation at a time, entry (p, n) of the reference's result is the sum over k of the quantized
  activation (p, k) -- quantized THROUGH the packed word: mantissa to an integer, sign flag into bit eleven, unpacked
  again -- times the weight (n, k) already multiplied by scale n, plus bias n; the weight is the full-precision one
  where the mask bit is set and the decoded packed word elsewhere, the decoding's sign factor computed on integers.
-/
import proofs.«423731_j18683107737694_3_alg».proof.Proof.Gen.ReferenceIdeal.Read
import proofs.«423731_j18683107737694_3_alg».proof.Proof.QSpec
import Idealize.ShloMosaic.Lib.ValueIdx

noncomputable section

namespace Cert.ReferenceIdeal.RefValue

open Cert.ReferenceIdeal Cert.ReferenceIdeal.Gen Cert.ReferenceIdeal.Read Cert.QSpec
open Idealize.ShloMosaic Idealize.ShloMosaic.ValueIdx

/-- The reference's entry (p, n). -/
def refAt (x0 : FVec Ideal S512x4096 .f32) (x1 : FVec Ideal S11008x4096 .f32) (x2 x3 : FVec Ideal S11008 .f32)
    (x4 : IVec S11008x4096 32) (x5 : IVec S11008x4096 1) (p : Fin 512) (n : Fin 11008) : EReal :=
  (∑ k : Fin 4096, (quantH (x0 (ix2 p k)) : EReal) * ((weightH (x5 (ix2 n k)) (x1 (ix2 n k)) (x4 (ix2 n k)) : EReal) * (x2 (ix1 n) : EReal)))
    + (x3 (ix1 n) : EReal)

/-- The quantized activations' stage at an entry: the clipped value's packed word, decoded. -/
theorem quant_stage (x0 : FVec Ideal S512x4096 .f32) (j : S512x4096.Idx) :
    Read.val_main_v54 (F := Ideal) x0 j = quantH (x0 j) := by
  simp only [Read.val_main_c_apply, Read.val_main_v0_apply, Read.val_main_v1_apply, Read.val_main_c_0_apply, Read.val_main_v2_apply, Read.val_main_v3_apply, Read.val_main_c_1_apply, Read.val_main_v4_apply, Read.val_main_v5_apply, Read.val_main_v6_apply, Read.val_main_cst_apply, Read.val_main_v7_apply, Read.val_main_v8_apply, Read.val_main_cst_2_apply, Read.val_main_v9_apply, Read.val_main_v10_apply, Read.val_main_c_3_apply, Read.val_main_v11_apply, Read.val_main_v12_apply, Read.val_main_c_4_apply, Read.val_main_v13_apply, Read.val_main_v14_apply, Read.val_main_v15_apply, Read.val_main_v16_apply, Read.val_main_v17_apply, Read.val_main_v18_apply, Read.val_main_v19_apply, Read.val_main_v20_apply, Read.val_main_cst_5_apply, Read.val_main_cst_6_apply, Read.val_main_call1_v0_apply, Read.val_main_call1_v1_apply, Read.val_main_call1_v2_apply, Read.val_main_call1_v3_apply, Read.val_main_call1_v4_apply, Read.val_main_v21_apply, Read.val_main_v22_apply, Read.val_main_cst_7_apply, Read.val_main_v23_apply, Read.val_main_v24_apply, Read.val_main_v25_apply, Read.val_main_cst_8_apply, Read.val_main_v26_apply, Read.val_main_v27_apply, Read.val_main_cst_9_apply, Read.val_main_v28_apply, Read.val_main_v29_apply, Read.val_main_v30_apply, Read.val_main_v31_apply, Read.val_main_cst_10_apply, Read.val_main_v32_apply, Read.val_main_v33_apply, Read.val_main_v34_apply, Read.val_main_c_11_apply, Read.val_main_v35_apply, Read.val_main_v36_apply, Read.val_main_v37_apply, Read.val_main_c_12_apply, Read.val_main_v38_apply, Read.val_main_v39_apply, Read.val_main_c_13_apply, Read.val_main_v40_apply, Read.val_main_v41_apply, Read.val_main_c_14_apply, Read.val_main_v42_apply, Read.val_main_v43_apply, Read.val_main_v44_apply, Read.val_main_cst_15_apply, Read.val_main_v45_apply, Read.val_main_v46_apply, Read.val_main_cst_16_apply, Read.val_main_v47_apply, Read.val_main_v48_apply, Read.val_main_c_17_apply, Read.val_main_v49_apply, Read.val_main_v50_apply, Read.val_main_c_18_apply, Read.val_main_v51_apply, Read.val_main_v52_apply, Read.val_main_v53_apply, Read.val_main_v54_apply]
  rfl

/-- The scaled weights' stage at entry (n, k): the selected weight times scale n. -/
theorem weight_stage (x1 : FVec Ideal S11008x4096 .f32) (x2 : FVec Ideal S11008 .f32) (x4 : IVec S11008x4096 32)
    (x5 : IVec S11008x4096 1) (n : Fin 11008) (k : Fin 4096) :
    Read.val_main_v20 (F := Ideal) x1 x2 x4 x5 (ix2 n k) = (weightH (x5 (ix2 n k)) (x1 (ix2 n k)) (x4 (ix2 n k)) : EReal) * (x2 (ix1 n) : EReal) := by
  have e : Read.idx_main_v18 (Read.idx_main_v19 (ix2 n k)) = ix1 n :=
    funext fun a => Fin.ext (by match a with | ⟨0, _⟩ => rfl)
  simp only [Read.val_main_c_apply, Read.val_main_v0_apply, Read.val_main_v1_apply, Read.val_main_c_0_apply, Read.val_main_v2_apply, Read.val_main_v3_apply, Read.val_main_c_1_apply, Read.val_main_v4_apply, Read.val_main_v5_apply, Read.val_main_v6_apply, Read.val_main_cst_apply, Read.val_main_v7_apply, Read.val_main_v8_apply, Read.val_main_cst_2_apply, Read.val_main_v9_apply, Read.val_main_v10_apply, Read.val_main_c_3_apply, Read.val_main_v11_apply, Read.val_main_v12_apply, Read.val_main_c_4_apply, Read.val_main_v13_apply, Read.val_main_v14_apply, Read.val_main_v15_apply, Read.val_main_v16_apply, Read.val_main_v17_apply, Read.val_main_v18_apply, Read.val_main_v19_apply, Read.val_main_v20_apply, Read.val_main_cst_5_apply, Read.val_main_cst_6_apply, Read.val_main_call1_v0_apply, Read.val_main_call1_v1_apply, Read.val_main_call1_v2_apply, Read.val_main_call1_v3_apply, Read.val_main_call1_v4_apply, Read.val_main_v21_apply, Read.val_main_v22_apply, Read.val_main_cst_7_apply, Read.val_main_v23_apply, Read.val_main_v24_apply, Read.val_main_v25_apply, Read.val_main_cst_8_apply, Read.val_main_v26_apply, Read.val_main_v27_apply, Read.val_main_cst_9_apply, Read.val_main_v28_apply, Read.val_main_v29_apply, Read.val_main_v30_apply, Read.val_main_v31_apply, Read.val_main_cst_10_apply, Read.val_main_v32_apply, Read.val_main_v33_apply, Read.val_main_v34_apply, Read.val_main_c_11_apply, Read.val_main_v35_apply, Read.val_main_v36_apply, Read.val_main_v37_apply, Read.val_main_c_12_apply, Read.val_main_v38_apply, Read.val_main_v39_apply, Read.val_main_c_13_apply, Read.val_main_v40_apply, Read.val_main_v41_apply, Read.val_main_c_14_apply, Read.val_main_v42_apply, Read.val_main_v43_apply, Read.val_main_v44_apply, Read.val_main_cst_15_apply, Read.val_main_v45_apply, Read.val_main_v46_apply, Read.val_main_cst_16_apply, Read.val_main_v47_apply, Read.val_main_v48_apply, Read.val_main_c_17_apply, Read.val_main_v49_apply, Read.val_main_v50_apply, Read.val_main_c_18_apply, Read.val_main_v51_apply, Read.val_main_v52_apply, Read.val_main_v53_apply, Read.val_main_v54_apply]
  rw [e]
  rfl

/-- The reference's result at entry (p, n). -/
theorem ref_apply (x0 : FVec Ideal S512x4096 .f32) (x1 : FVec Ideal S11008x4096 .f32) (x2 x3 : FVec Ideal S11008 .f32)
    (x4 : IVec S11008x4096 32) (x5 : IVec S11008x4096 1) (p : Fin 512) (n : Fin 11008) :
    Read.val_main_v59 (F := Ideal) x0 x1 x2 x3 x4 x5 (ix2 p n) = refAt x0 x1 x2 x3 x4 x5 p n := by
  have el : ∀ k : Fin 4096, Read.lidx_main_v56 (ix2 p n) k = ix2 p k := fun k =>
    funext fun a => Fin.ext (by match a with | ⟨0, _⟩ => rfl | ⟨1, _⟩ => rfl)
  have er : ∀ k : Fin 4096, Read.idx_main_v55 (Read.ridx_main_v56 (ix2 p n) k) = ix2 n k := fun k =>
    funext fun a => Fin.ext (by match a with | ⟨0, _⟩ => rfl | ⟨1, _⟩ => rfl)
  have eb : Read.idx_main_v57 (Read.idx_main_v58 (ix2 p n)) = ix1 n :=
    funext fun a => Fin.ext (by match a with | ⟨0, _⟩ => rfl)
  rw [Read.val_main_v59_apply, Read.val_main_v56_apply, Read.val_main_v58_apply, Read.val_main_v57_apply, eb]
  simp only [Read.val_main_v55_apply, el, er, quant_stage, weight_stage]
  rfl

end Cert.ReferenceIdeal.RefValue

end
-- ==== Proof.QLaws.lean ====
/-
  The laws of the quantized linear layer's scalar arithmetic on the extended reals.

  With M = 2047/2048 the clip bound: every quantized activation and every decoded weight is a finite real,
  whatever the input (the infinities are clipped to ±M first); decoding with the sign factor 2 s - 1 computed
  in floats agrees with decoding with it computed on integers and then converted, because the sign bit s is 0 or 1;
  packing a clipped value into a word (mantissa in the low eleven bits, sign in bit eleven) and unpacking it again
  returns the same mantissa and sign, because the mantissa floor(|c| * 2047 / M) lies in 0 .. 2047 < 2^11; a
  one-bit mask widened to 32 bits is nonzero exactly when it is set; and a finite sum of real products times a real
  scale is the sum of the products with the scale moved inside.
-/
import proofs.«423731_j18683107737694_3_alg».proof.Proof.QSpec
import Mathlib.Tactic.NormNum
import Mathlib.Tactic.Linarith
import Mathlib.Tactic.Positivity
import Mathlib.Tactic.Ring
import Mathlib.Algebra.Order.Floor.Ring
import Mathlib.Algebra.BigOperators.Ring.Finset

noncomputable section

namespace Cert.QSpec

open Idealize.ShloMosaic

/-! ### The constants, as the reals their patterns denote -/

/-- The clip bound's pattern denotes 2047/2048 = 1 - 2^-11. -/
theorem cM_eq : cM = (((2047 / 2048 : ℝ)) : EReal) := by
  simp [cM, Ideal.ofBits, Ideal.ieee, -EReal.coe_mul]; norm_num

/-- The negated clip bound's pattern denotes -(2047/2048). -/
theorem cNegM_eq : cNegM = (((-(2047 / 2048) : ℝ)) : EReal) := by
  simp [cNegM, Ideal.ofBits, Ideal.ieee, -EReal.coe_mul]; norm_num

/-- The step count's pattern denotes 2047. -/
theorem cD_eq : cD = ((2047 : ℝ) : EReal) := by
  simp [cD, Ideal.ofBits, Ideal.ieee, -EReal.coe_mul]; norm_num

/-- The all-zero pattern denotes 0. -/
theorem cZero_eq : cZero = ((0 : ℝ) : EReal) := by
  simp [cZero, Ideal.ofBits, Ideal.ieee]

/-- The pattern of 1.0 denotes 1. -/
theorem cOne_eq : cOne = ((1 : ℝ) : EReal) := by
  simp [cOne, Ideal.ofBits, Ideal.ieee, -EReal.coe_mul]; norm_num

/-- The pattern of 2.0 denotes 2. -/
theorem cTwo_eq : cTwo = ((2 : ℝ) : EReal) := by
  simp [cTwo, Ideal.ofBits, Ideal.ieee, -EReal.coe_mul]; norm_num

/-! ### The scalar functions on real arguments -/

/-- The embedding of the reals into the extended reals is monotone, so it commutes with max. -/
theorem coe_max' (a b : ℝ) : max (a : EReal) (b : EReal) = ((max a b : ℝ) : EReal) :=
  (EReal.coe_strictMono.monotone.map_max).symm

/-- The embedding of the reals into the extended reals commutes with min. -/
theorem coe_min' (a b : ℝ) : min (a : EReal) (b : EReal) = ((min a b : ℝ) : EReal) :=
  (EReal.coe_strictMono.monotone.map_min).symm

/-- The clipped value min M (max (-M) x) is a real in [-M, M] for every extended real x: -∞ clips to -M,
    +∞ to M, and a real to its clip in the reals. -/
theorem clip_real (x : Ideal .f32) :
    ∃ c : ℝ, clip x = ((c : ℝ) : EReal) ∧ -(2047 / 2048) ≤ c ∧ c ≤ 2047 / 2048 := by
  show ∃ c : ℝ, min cM (max cNegM x) = ((c : ℝ) : EReal) ∧ _
  rw [cM_eq, cNegM_eq]
  induction x using EReal.rec with
  | bot =>
    refine ⟨-(2047 / 2048), ?_, le_refl _, by norm_num⟩
    rw [max_eq_left bot_le, coe_min', min_eq_right (by norm_num)]
  | coe r =>
    refine ⟨min (2047 / 2048) (max (-(2047 / 2048)) r), ?_, ?_, min_le_left _ _⟩
    · rw [coe_max', coe_min']
    · exact le_min (by norm_num) (le_max_left _ _)
  | top =>
    refine ⟨2047 / 2048, ?_, by norm_num, le_refl _⟩
    rw [max_eq_right le_top, min_eq_left le_top]

/-- The mantissa of a real c is the integer floor(|c| * 2047 * (2048/2047)): the absolute value is max c (-c),
    and dividing by the nonzero real M is multiplying by 1/M = 2048/2047. -/
theorem mant_coe (c : ℝ) :
    mant ((c : ℝ) : EReal) = (((⌊|c| * 2047 * (2048 / 2047)⌋ : ℤ) : ℝ) : EReal) := by
  show Ideal.liftRound Int.floor (Ideal.div (max ((c : ℝ) : EReal) (-((c : ℝ) : EReal)) * cD) cM) = _
  rw [cD_eq, cM_eq, Ideal.div_coe (by norm_num), ← EReal.coe_neg, coe_max', ← EReal.coe_mul, ← EReal.coe_mul,
    Ideal.liftRound_coe, ← abs_eq_max_neg, show (1 / (2047 / 2048) : ℝ) = 2048 / 2047 by norm_num]

/-- The magnitude of a real mantissa m is the real m * (1/2047) * M. -/
theorem mag_coe (m : ℝ) : mag ((m : ℝ) : EReal) = ((m * (1 / 2047) * (2047 / 2048) : ℝ) : EReal) := by
  show Ideal.div ((m : ℝ) : EReal) cD * cM = _
  rw [cD_eq, cM_eq, Ideal.div_coe (by norm_num), ← EReal.coe_mul, ← EReal.coe_mul]

/-- The sign factor of a real flag s is the real 2 s - 1. -/
theorem sfac_coe (s : ℝ) : sfac ((s : ℝ) : EReal) = ((2 * s - 1 : ℝ) : EReal) := by
  show cTwo * ((s : ℝ) : EReal) - cOne = _
  rw [cTwo_eq, cOne_eq, ← EReal.coe_mul, ← EReal.coe_sub]

/-- Comparing a real c with zero on the extended reals is comparing it with zero on the reals. -/
theorem cmp_olt_coe (c : ℝ) : Ideal.cmp .olt ((c : ℝ) : EReal) cZero = BitVec.ofBool (decide (c < 0)) := by
  rw [cZero_eq]
  show BitVec.ofBool (decide (((c : ℝ) : EReal) < ((0 : ℝ) : EReal))) = _
  simp only [EReal.coe_lt_coe_iff]

/-- The sign flag of a real c is the real 1 when c < 0 and the real 0 otherwise. -/
theorem sflag_coe (c : ℝ) : sflag ((c : ℝ) : EReal) = (((if c < 0 then 1 else 0 : ℝ)) : EReal) := by
  show Scalar.select (Ideal.cmp .olt ((c : ℝ) : EReal) cZero) cOne cZero = _
  rw [cmp_olt_coe, cOne_eq, cZero_eq]
  by_cases h : c < 0 <;> simp [h, Scalar.select]

/-! ### Words: the low eleven bits and bit eleven -/

/-- A word and-ed with 1 is 0 or 1: its value is the word's value modulo 2. -/
theorem and_one_cases (x : BitVec 32) : x &&& 1#32 = 0#32 ∨ x &&& 1#32 = 1#32 := by
  have h1 : (x &&& 1#32).toNat = x.toNat % 2 := by
    rw [BitVec.toNat_and]; exact Nat.and_one_is_mod _
  rcases Nat.mod_two_eq_zero_or_one x.toNat with h | h
  · left; apply BitVec.eq_of_toNat_eq; rw [h1, h]; rfl
  · right; apply BitVec.eq_of_toNat_eq; rw [h1, h]; rfl

/-- An arithmetic right shift by eleven, below the width 32, is the plain arithmetic shift on every unit. -/
theorem shrsi_eleven (u : ArithUnit) (e : BitVec 32) : IntOp.shrsi u e 11#32 = e.sshiftRight 11 := by
  unfold IntOp.shrsi
  rw [if_pos (by decide), BitVec.sshiftRight_eq']; rfl

/-- A left shift by eleven, below the width 32, is the plain left shift on every unit. -/
theorem shli_eleven (u : ArithUnit) (e : BitVec 32) : IntOp.shli u e 11#32 = e <<< 11 := by
  unfold IntOp.shli
  rw [if_pos (by decide), BitVec.shiftLeft_eq']; rfl

/-- Bit eleven of a word is the same read by either unit's shift. -/
theorem sbitH_eq (e : BitVec 32) : sbitH e = sbit e := by
  unfold sbitH sbit; rw [shrsi_eleven, shrsi_eleven]

/-- Bit eleven of a word is 0 or 1. -/
theorem sbit_cases (e : BitVec 32) : sbit e = 0#32 ∨ sbit e = 1#32 := and_one_cases _

/-- For a sign word s in {0, 1}, the integer 2 s - 1 converted to a float is the float sign factor 2 s - 1 of s
    converted: both are -1 at s = 0 and 1 at s = 1. -/
theorem sfac_word (s : BitVec 32) (hs : s = 0#32 ∨ s = 1#32) :
    FloatOps.sitofp (F := Ideal) .f32 (IntOp.subi (IntOp.muli 2#32 s) 1#32) = sfac (FloatOps.sitofp .f32 s) := by
  rcases hs with rfl | rfl
  · show ((((2#32 * 0#32 - 1#32 : BitVec 32).toInt : ℤ) : ℝ) : EReal) = sfac ((((0#32 : BitVec 32).toInt : ℤ) : ℝ) : EReal)
    rw [sfac_coe, show (2#32 * 0#32 - 1#32 : BitVec 32).toInt = -1 by decide, show (0#32 : BitVec 32).toInt = 0 by decide]
    norm_num
  · show ((((2#32 * 1#32 - 1#32 : BitVec 32).toInt : ℤ) : ℝ) : EReal) = sfac ((((1#32 : BitVec 32).toInt : ℤ) : ℝ) : EReal)
    rw [sfac_coe, show (2#32 * 1#32 - 1#32 : BitVec 32).toInt = 1 by decide, show (1#32 : BitVec 32).toInt = 1 by decide]
    norm_num

/-- A word whose value is below 2^31 has a clear top bit. -/
theorem msb_false_of_lt (y : BitVec 32) (h : y.toNat < 2 ^ 31) : y.msb = false :=
  BitVec.msb_eq_false_iff_two_mul_lt.2 (by omega)

/-- The low eleven bits of a word are its value modulo 2^11. -/
theorem low_eleven (y : BitVec 32) : (y &&& 2047#32).toNat = y.toNat % 2048 := by
  rw [BitVec.toNat_and]; exact Nat.and_two_pow_sub_one_eq_mod _ 11

/-- Bit eleven of a nonnegative word (value below 2^31, so the arithmetic shift is the logical one) is its
    value divided by 2^11, modulo 2. -/
theorem bit_eleven (y : BitVec 32) (h : y.toNat < 2 ^ 31) :
    (y.sshiftRight 11 &&& 1#32).toNat = y.toNat / 2048 % 2 := by
  rw [BitVec.sshiftRight_eq_of_msb_false (msb_false_of_lt y h), BitVec.toNat_and, BitVec.toNat_ushiftRight,
    Nat.shiftRight_eq_div_pow]
  exact Nat.and_one_is_mod _

/-- A mantissa k < 2^11 or-ed with a sign word s in {0, 1} shifted to bit eleven has the value k + 2^11 s:
    the two occupy disjoint bits, so the or is the sum. -/
theorem word_toNat (k : ℕ) (hk : k < 2048) (s : BitVec 32) (hs : s = 0#32 ∨ s = 1#32) :
    (BitVec.ofNat 32 k ||| s <<< 11).toNat = k + 2048 * s.toNat := by
  have hk' : (BitVec.ofNat 32 k).toNat = k := by
    rw [BitVec.toNat_ofNat]; exact Nat.mod_eq_of_lt (by omega)
  rcases hs with rfl | rfl
  · rw [show (0#32 : BitVec 32) <<< 11 = 0#32 by decide, BitVec.or_zero, hk']; rfl
  · rw [BitVec.toNat_or, hk', show ((1#32 : BitVec 32) <<< 11).toNat = 2 ^ 11 * 1 by decide, Nat.or_comm,
      ← Nat.two_pow_add_eq_or_of_lt (by omega : k < 2 ^ 11) 1]
    show 2 ^ 11 * 1 + k = k + 2048 * 1
    omega

/-- Unpacking the mantissa: the low eleven bits of the packed word are k, since (k + 2^11 s) mod 2^11 = k. -/
theorem unpack_low (k : ℕ) (hk : k < 2048) (s : BitVec 32) (hs : s = 0#32 ∨ s = 1#32) :
    mbits (BitVec.ofNat 32 k ||| s <<< 11) = BitVec.ofNat 32 k := by
  apply BitVec.eq_of_toNat_eq
  show ((BitVec.ofNat 32 k ||| s <<< 11) &&& 2047#32).toNat = _
  rw [low_eleven, word_toNat k hk s hs, BitVec.toNat_ofNat, Nat.mod_eq_of_lt (by omega : k < 2 ^ 32)]
  omega

/-- Unpacking the sign: bit eleven of the packed word is s, since (k + 2^11 s) / 2^11 = s for k < 2^11. -/
theorem unpack_sign (k : ℕ) (hk : k < 2048) (s : BitVec 32) (hs : s = 0#32 ∨ s = 1#32) :
    sbit (BitVec.ofNat 32 k ||| s <<< 11) = s := by
  have hs' : s.toNat = 0 ∨ s.toNat = 1 := by rcases hs with rfl | rfl <;> decide
  apply BitVec.eq_of_toNat_eq
  unfold sbit
  rw [shrsi_eleven]
  show ((BitVec.ofNat 32 k ||| s <<< 11).sshiftRight 11 &&& 1#32).toNat = _
  rw [bit_eleven _ (by rw [word_toNat k hk s hs]; omega), word_toNat k hk s hs]
  omega

/-! ### The mantissa's range, and its conversions -/

/-- The embedding of the reals into the extended reals commutes with finite sums. -/
theorem coe_finset_sum' {K : Type} (t : Finset K) (f : K → ℝ) :
    ∑ k ∈ t, ((f k : ℝ) : EReal) = ((∑ k ∈ t, f k : ℝ) : EReal) := by
  classical
  induction t using Finset.induction_on with
  | empty => simp
  | insert a t ha ih => rw [Finset.sum_insert ha, Finset.sum_insert ha, ih, EReal.coe_add]

/-- For c in [-M, M] the mantissa floor(|c| * 2047 / M) is a natural number below 2048:
    0 ≤ |c| * 2047 / M = |c| * 2048 ≤ 2047 < 2048. -/
theorem mant_range (c : ℝ) (h0 : -(2047 / 2048) ≤ c) (h1 : c ≤ 2047 / 2048) :
    ∃ k : ℕ, k < 2048 ∧ ⌊|c| * 2047 * (2048 / 2047)⌋ = (k : ℤ) := by
  have habs : |c| ≤ 2047 / 2048 := abs_le.2 ⟨h0, h1⟩
  have hnn : (0 : ℝ) ≤ |c| * 2047 * (2048 / 2047) := by positivity
  have hle : |c| * 2047 * (2048 / 2047) < ((2048 : ℤ) : ℝ) := by
    have : |c| * 2047 * (2048 / 2047) = |c| * 2048 := by ring
    rw [this]; push_cast; nlinarith [abs_nonneg c]
  have hf0 : 0 ≤ ⌊|c| * 2047 * (2048 / 2047)⌋ := Int.floor_nonneg.2 hnn
  have hf1 : ⌊|c| * 2047 * (2048 / 2047)⌋ < 2048 := Int.floor_lt.2 hle
  obtain ⟨k, hk⟩ := Int.eq_ofNat_of_zero_le hf0
  exact ⟨k, by omega, hk⟩

/-- Converting the integer-valued float k, 0 ≤ k < 2048, to a 32-bit signed word gives the word of k: rounding
    toward zero leaves an integer alone and k is inside the signed range, so nothing is clamped. -/
theorem fptosi_nat (k : ℕ) (hk : k < 2048) :
    FloatOps.fptosi (F := Ideal) (φ := .f32) 32 ((((k : ℤ) : ℝ)) : EReal) = BitVec.ofNat 32 k := by
  show BitVec.ofInt 32 (Ideal.toIntClamped (-(2 ^ (32 - 1) : ℕ)) ((2 ^ (32 - 1) : ℕ) - 1) ((((k : ℤ) : ℝ)) : EReal)) = _
  rw [Ideal.toIntClamped_coe]
  simp only [Int.floor_intCast, Int.ceil_intCast, ite_self]
  rw [min_eq_right (by push_cast; omega), max_eq_right (by push_cast; omega), BitVec.ofInt_natCast]

/-- The word of k < 2048 read as a signed integer is k (its top bit is clear). -/
theorem toInt_ofNat_small (k : ℕ) (hk : k < 2048) : (BitVec.ofNat 32 k).toInt = (k : ℤ) := by
  have hk' : (BitVec.ofNat 32 k).toNat = k := by
    rw [BitVec.toNat_ofNat]; exact Nat.mod_eq_of_lt (by omega)
  rw [BitVec.toInt_eq_toNat_of_msb (msb_false_of_lt _ (by rw [hk']; omega)), hk']

/-! ### The seven laws -/

/-- The quantized activation is a finite real for every extended real input: the clipped value is a real, its
    mantissa is an integer, its sign flag is 0 or 1, and the rest is real arithmetic. -/
theorem quant_real (x : Ideal .f32) : ∃ r : ℝ, quant x = ((r : ℝ) : EReal) := by
  obtain ⟨c, hc, -, -⟩ := clip_real x
  unfold quant
  rw [hc, mant_coe, mag_coe, sflag_coe, sfac_coe, Ideal.mulf_def, ← EReal.coe_mul]
  exact ⟨_, rfl⟩

/-- The decoded weight of a packed word is a finite real: the mantissa and sign words convert to reals and the
    rest is real arithmetic. -/
theorem decode_real (e : BitVec 32) : ∃ r : ℝ, decode e = ((r : ℝ) : EReal) := by
  show ∃ r : ℝ, mag (((((mbits e).toInt : ℤ) : ℝ)) : EReal) * sfac (((((sbit e).toInt : ℤ) : ℝ)) : EReal) = _
  rw [mag_coe, sfac_coe, ← EReal.coe_mul]
  exact ⟨_, rfl⟩

/-- The weight used at an entry is a finite real when the full-precision weight is: it is one of that weight and
    the decoded weight. -/
theorem weight_real (mk : BitVec 1) (wf : Ideal .f32) (e : BitVec 32) (h : ∃ r : ℝ, wf = ((r : ℝ) : EReal)) :
    ∃ r : ℝ, weight mk wf e = ((r : ℝ) : EReal) := by
  show ∃ r : ℝ, (if mk = 1 then wf else decode e) = _
  split
  · exact h
  · exact decode_real e

/-- Decoding with the sign factor computed on integers equals decoding with it computed in floats: the sign bit is
    0 or 1 (and the same by either unit's shift), where both factors are -1 or 1. -/
theorem decodeH_eq (e : BitVec 32) : decodeH e = decode e := by
  unfold decodeH decode
  rw [sbitH_eq, sfac_word _ (sbit_cases e)]

/-- Quantizing through the packed word equals quantizing directly: for the clipped real c the mantissa is a natural
    number k < 2^11 and the sign flag a word s in {0, 1}; the packed word k or (s shifted to bit eleven) unpacks
    to k and s again, k converts back to the float it came from, and s to the float sign flag. -/
theorem quantH_eq (x : Ideal .f32) : quantH x = quant x := by
  obtain ⟨c, hc, h0, h1⟩ := clip_real x
  obtain ⟨k, hk, hfl⟩ := mant_range c h0 h1
  have hm : mant ((c : ℝ) : EReal) = ((((k : ℤ) : ℝ)) : EReal) := by rw [mant_coe, hfl]
  -- the sign word: 1 when c < 0, else 0; as a float it is the sign flag
  obtain ⟨s, hs, hsw, hsf⟩ : ∃ s : BitVec 32, (s = 0#32 ∨ s = 1#32)
      ∧ (Ideal.cmp .olt ((c : ℝ) : EReal) cZero).setWidth 32 = s
      ∧ FloatOps.sitofp (F := Ideal) .f32 s = sflag ((c : ℝ) : EReal) := by
    rw [cmp_olt_coe, sflag_coe]
    by_cases h : c < 0
    · refine ⟨1#32, Or.inr rfl, by simp [h], ?_⟩
      show ((((1#32 : BitVec 32).toInt : ℤ) : ℝ) : EReal) = _
      rw [show (1#32 : BitVec 32).toInt = 1 by decide]; simp [h]
    · refine ⟨0#32, Or.inl rfl, by simp [h], ?_⟩
      show ((((0#32 : BitVec 32).toInt : ℤ) : ℝ) : EReal) = _
      rw [show (0#32 : BitVec 32).toInt = 0 by decide]; simp [h]
  -- the packed word
  have hp : pack ((c : ℝ) : EReal) = BitVec.ofNat 32 k ||| s <<< 11 := by
    show FloatOps.fptosi (F := Ideal) (φ := .f32) 32 (mant ((c : ℝ) : EReal))
      ||| IntOp.shli .host ((Ideal.cmp .olt ((c : ℝ) : EReal) cZero).setWidth 32) 11#32 = _
    rw [hm, fptosi_nat k hk, shli_eleven, hsw]
  unfold quantH quant
  rw [decodeH_eq, hc, hp]
  unfold decode
  rw [unpack_low k hk s hs, unpack_sign k hk s hs, hsf, hm]
  show mag (((((BitVec.ofNat 32 k).toInt : ℤ) : ℝ)) : EReal) * _ = _
  rw [toInt_ofNat_small k hk]
  rfl

/-- A one-bit mask widened to 32 bits differs from zero exactly when the mask is 1, so selecting on that
    comparison is selecting on the mask (checked on both one-bit words). -/
theorem select_ne_zero (mk : BitVec 1) (a b : Ideal .f32) :
    Scalar.select (IntOp.cmpi .ne (mk.setWidth 32) 0#32) a b = Scalar.select mk a b := by
  have h : ∀ m : BitVec 1, IntOp.cmpi .ne (m.setWidth 32) 0#32 = m := by decide
  rw [h]

/-- For real a k, w k and a real scale s, (sum of a k * w k) * s = sum of a k * (w k * s): in the reals the product
    distributes over the finite sum and is associative; the term b is added on both sides. -/
theorem sum_mul_scale {K : Type} [Fintype K] (a w : K → EReal) (s b : EReal)
    (ha : ∀ k, ∃ r : ℝ, a k = ((r : ℝ) : EReal)) (hw : ∀ k, ∃ r : ℝ, w k = ((r : ℝ) : EReal))
    (hs : ∃ r : ℝ, s = ((r : ℝ) : EReal)) :
    (∑ k, a k * w k) * s + b = (∑ k, a k * (w k * s)) + b := by
  choose ra hra using ha
  choose rv hrv using hw
  obtain ⟨rs, rfl⟩ := hs
  have h1 : ∑ k, a k * w k = ((∑ k, ra k * rv k : ℝ) : EReal) := by
    rw [← coe_finset_sum']
    exact Finset.sum_congr rfl fun k _ => by rw [hra k, hrv k, EReal.coe_mul]
  have h2 : ∑ k, a k * (w k * ((rs : ℝ) : EReal)) = ((∑ k, ra k * (rv k * rs) : ℝ) : EReal) := by
    rw [← coe_finset_sum']
    exact Finset.sum_congr rfl fun k _ => by rw [hra k, hrv k, EReal.coe_mul, EReal.coe_mul]
  rw [h1, h2, ← EReal.coe_mul, Finset.sum_mul]
  congr 2
  exact Finset.sum_congr rfl fun k _ => mul_assoc _ _ _

end Cert.QSpec

end
-- ==== Proof.Bridge.lean ====
/-
  The two results are one function of the arguments, entry by entry, when the full-precision weights and the scale
  are finite.

  The kernel multiplies the quantized activations by the selected weights and scales the SUM by scale n; the plain
  formulation scales every WEIGHT by scale n first. The activations' quantization is a real number whatever the
  activation, the selected weight is real when the full-precision weight is, and scale n is real, so the factor
  moves across the sum. The two quantizations agree (the round trip through the packed word is the identity), the two
  decodings agree, and a widened mask bit is nonzero exactly when the bit is set.
-/
import proofs.«423731_j18683107737694_3_alg».proof.Proof.KernelValue
import proofs.«423731_j18683107737694_3_alg».proof.Proof.RefValue
import proofs.«423731_j18683107737694_3_alg».proof.Proof.QLaws
import Idealize.ShloMosaic.Lib.Pipeline.Value

noncomputable section

namespace Cert.Bridge

open Cert.QSpec Cert.KernelIdeal.Value Cert.ReferenceIdeal.RefValue
open Idealize.ShloMosaic Idealize.ShloMosaic.ValueIdx

/-- A vector recast as one row reads, at (0, n), the vector's entry n. -/
theorem row_apply {α : Type} (x : (⟨1, ![11008]⟩ : Shape).Idx → α) (h : (⟨1, ![11008]⟩ : Shape).ShapeCasts ⟨2, ![1, 11008]⟩)
    (n : Fin 11008) : shapeCast ⟨2, ![1, 11008]⟩ x h (ix2 (0 : Fin 1) n) = x (ix1 n) :=
  shapeCast_apply x h _ _ (by
    rw [Shape.rowMajor_val_two, Shape.rowMajor_val_one]
    show n.val = 0 * 11008 + n.val
    omega)

/-- The kernel program's result is the reference's last stage, for finite weights and scale. -/
theorem result_eq (x0 : FVec Ideal ⟨2, ![512, 4096]⟩ .f32) (x1 : FVec Ideal ⟨2, ![11008, 4096]⟩ .f32)
    (x2 x3 : FVec Ideal ⟨1, ![11008]⟩ .f32) (x4 : IVec ⟨2, ![11008, 4096]⟩ 32) (x5 : IVec ⟨2, ![11008, 4096]⟩ 1)
    (h1 : ∀ i, ∃ r : ℝ, x1 i = ((r : ℝ) : EReal)) (h2 : ∀ i, ∃ r : ℝ, x2 i = ((r : ℝ) : EReal)) :
    KOUT x0 x1 x2 x3 x4 x5 = Cert.ReferenceIdeal.Read.val_main_v59 (F := Ideal) x0 x1 x2 x3 x4 x5 := by
  funext i
  obtain ⟨p, n, rfl⟩ : ∃ (p : Fin 512) (n : Fin 11008), i = ix2 p n := ⟨i 0, i 1, eq_ix2 i⟩
  rw [ref_apply]
  show Cert.KernelIdeal.Arr1.outAt (Cert.KernelIdeal.Arr0.XQ x0) x1 x4 (extui 32 x5 _) (shapeCast _ x2 _) (shapeCast _ x3 _) p n = _
  unfold Cert.KernelIdeal.Arr1.outAt Cert.KernelIdeal.Arr1.wsel refAt
  rw [row_apply, row_apply]
  have hL : ∀ k : Fin 4096, (Cert.KernelIdeal.Arr0.XQ x0 (ix2 p k) : EReal)
        * Scalar.select (IntOp.cmpi .ne (extui 32 x5 Cert.KernelIdeal.Facts₀.natLt_1_32 (ix2 n k)) 0#32) (x1 (ix2 n k)) (decode (x4 (ix2 n k)))
      = (quant (x0 (ix2 p k)) : EReal) * (weight (x5 (ix2 n k)) (x1 (ix2 n k)) (x4 (ix2 n k)) : EReal) := fun k => by
    show (quant (x0 (ix2 p k)) : EReal) * Scalar.select (IntOp.cmpi .ne ((x5 (ix2 n k)).setWidth 32) 0#32) (x1 (ix2 n k)) (decode (x4 (ix2 n k))) = _
    rw [select_ne_zero]
    rfl
  have hR : ∀ k : Fin 4096, (quantH (x0 (ix2 p k)) : EReal) * ((weightH (x5 (ix2 n k)) (x1 (ix2 n k)) (x4 (ix2 n k)) : EReal) * (x2 (ix1 n) : EReal))
      = (quant (x0 (ix2 p k)) : EReal) * ((weight (x5 (ix2 n k)) (x1 (ix2 n k)) (x4 (ix2 n k)) : EReal) * (x2 (ix1 n) : EReal)) := fun k => by
    rw [quantH_eq]
    unfold weightH
    rw [decodeH_eq]
    rfl
  rw [Finset.sum_congr rfl (fun k _ => hL k), Finset.sum_congr rfl (fun k _ => hR k)]
  exact sum_mul_scale (fun k => quant (x0 (ix2 p k))) (fun k => weight (x5 (ix2 n k)) (x1 (ix2 n k)) (x4 (ix2 n k)))
    (x2 (ix1 n)) (x3 (ix1 n)) (fun k => quant_real _) (fun k => weight_real _ _ _ (h1 _)) (h2 _)

end Cert.Bridge

end
-- ==== Proof.FiniteInputs.lean ====
/-
  Finiteness of the inputs, read back from the precondition `finite_inputs`.

  The precondition computes, for each of its four float inputs `x`, the bit `all (|x| < +∞)`: the
  pointwise comparison of `|x|` with the constant whose pattern `0x7F800000` denotes `+∞`, reduced
  by `and` over all axes from the initial value `true`; the four bits are then joined by `and`.
  This module proves that when the result is `true`, every entry of the second input
  (`f32[11008, 4096]`) and of the third (`f32[11008]`) is, as an extended real, a real number:
  neither `+∞` nor `-∞`.

  The argument: an `and` of bits is 1 only if each bit is 1; an `and`-reduction onto a single index is 1
  only if every reduced element is 1; the comparison bit at an index is 1 only if `max x (-x) < ⊤`
  there; and an extended real `x` with `max x (-x) < ⊤` is neither `⊤` (then `max x (-x) = ⊤`) nor `⊥`
  (then `-x = ⊤`), so it is a real.
-/
import proofs.«423731_j18683107737694_3_alg».proof.Pre_finite_inputs
import proofs.«423731_j18683107737694_3_alg».proof.Proof.Gen.Pre_finite_inputs
import Idealize.ShloMosaic.PureOps.Ideal
import Idealize.ShloMosaic.Lib.ReduceAll
noncomputable section
namespace Cert.FiniteInputs
open Idealize.ShloMosaic Cert.Pre_finite_inputs

/-- The rank-0 shape has exactly one index: two index functions on the empty set of axes agree. -/
instance : Subsingleton S_.Idx := ⟨fun a b => funext fun d => d.elim0⟩

/-- An extended real whose absolute value `max x (-x)` is strictly below `⊤` is a real number:
    at `x = ⊤` the maximum is `⊤`, and at `x = ⊥` it is `-⊥ = ⊤`. -/
theorem real_of_abs_lt_top (x : EReal) (h : max x (-x) < ⊤) : ∃ r : ℝ, x = ((r : ℝ) : EReal) := by
  induction x using EReal.rec with
  | bot => simp at h
  | coe r => exact ⟨r, rfl⟩
  | top => simp at h

/-- The ordered "less than" comparison of two extended reals answers the bit 1 only when the first
    is strictly below the second. -/
theorem lt_of_cmp_olt {a b : EReal} (h : Ideal.cmp .olt a b = 1#1) : a < b := by
  by_contra hn
  simp [Ideal.cmp, hn] at h

/-- The `f32` pattern `0x7F800000` (sign 0, exponent all ones, significand 0) denotes `+∞`. -/
theorem ofBits_inf : Ideal.ofBits .f32 0x7F800000#32 = ⊤ := by simp [Ideal.ofBits, Ideal.ieee]

/-- `all (|x| < +∞)` read back: if the `and`-reduction over all axes of the pointwise test
    `|x| < +∞` is 1, then every entry of `x` is a real number. -/
theorem real_of_all_abs_lt_inf {s : Shape} {axes : List (Fin s.rank)} (x : FVec Ideal s .f32)
    (hb : S_.BroadcastsInDim s (![] : Fin 0 → Fin s.rank)) (hr : s.ReducesTo axes S_) (hu : 0 < S_.numel)
    (j : S_.Idx)
    (e : Host.reduce IntOp.andi
          (cmpf .olt (Host.absf x) (broadcastInDim s ![] hb (constant (F := Ideal) S_ .f32 0x7F800000#32)))
          (constantI S_ 1 1#1) hr hu j = 1#1)
    (i : s.Idx) : ∃ r : ℝ, x i = ((r : ℝ) : EReal) := by
  -- the reduction is 1, so the comparison bit at `i` is 1
  have hi := Host.reduce_andi_all _ _ hr hu j e i
  -- that bit is the comparison of `max (x i) (-(x i))` with the value the pattern denotes
  have hlt : max (x i) (-(x i)) < Ideal.ofBits .f32 0x7F800000#32 := lt_of_cmp_olt hi
  rw [ofBits_inf] at hlt
  exact real_of_abs_lt_top _ hlt

/-- If the precondition `finite_inputs` holds of the six inputs (its one-bit result is 1), then every
    entry of the second input `x1` and every entry of the third input `x2` is a real number, that is,
    an extended real other than `+∞` and `-∞`. -/
theorem real_of_pre [Cert.Pre_finite_inputs.Facts] (x0 : FVec Ideal S512x4096 .f32) (x1 : FVec Ideal S11008x4096 .f32)
    (x2 x3 : FVec Ideal S11008 .f32) (x4 : IVec S11008x4096 32) (x5 : IVec S11008x4096 1)
    (h : Cert.Pre_finite_inputs.fn (F := Ideal) x0 x1 x2 x3 x4 x5 = fun _ => 1#1) :
    (∀ i, ∃ r : ℝ, x1 i = ((r : ℝ) : EReal)) ∧ (∀ i, ∃ r : ℝ, x2 i = ((r : ℝ) : EReal)) := by
  -- the result at its one index: ((b0 ∧ b1) ∧ b2) ∧ b3 = 1, each `b` one input's `all (|x| < +∞)`
  have h0 := congrFun h (fun d => d.elim0)
  dsimp only [fn, fn_part1] at h0
  obtain ⟨h012, -⟩ := IntOp.andi_eq_one.1 h0
  obtain ⟨h01, h2⟩ := IntOp.andi_eq_one.1 h012
  obtain ⟨-, h1⟩ := IntOp.andi_eq_one.1 h01
  exact ⟨fun i => real_of_all_abs_lt_inf x1 _ _ _ _ h1 i, fun i => real_of_all_abs_lt_inf x2 _ _ _ _ h2 i⟩
end Cert.FiniteInputs
end
-- ==== Proof.lean ====
/-
  A quantized linear layer in two kernels against its plain formulation, over the extended reals.

  The kernel program quantizes the activations in a first kernel (clip to [-M, M], M = 1 - 2^-11; mantissa
  floor(|c| * 2047 / M); value mantissa / 2047 * M * (2 s - 1), s the sign flag) and, in a second kernel tiled over the
  11008 output columns, decodes the packed weights by the same formula, takes the full-precision weight where the
  outlier mask is set, multiplies the quantized activations by that tile contracted on the 4096 axis, scales column n by
  scale n and adds bias n. The plain formulation packs each quantized activation into an integer word and unpacks
  it again, computes the decoding's sign factor on integers, scales every weight row by scale n BEFORE one whole matrix
  product, and adds the bias.

  Entry by entry both are (sum over k of xq (p, k) * w (n, k) [* scale n]) + bias n. They agree because the round trip
  through the packed word is the identity on a mantissa in [0, 2047], the two sign factors are both -1 or 1, a widened
  mask bit is nonzero exactly when the bit is set, and scale n moves across the sum: xq is a real number for every
  activation, and the full-precision weights and the scale are finite by the precondition, which is where it is used.
  A matrix product into the zero array and the host's product are the same sum, and a change of float format is the
  identity.

  The frames of the two kernel programs are the generated ones; the reference's is its generated run with the result
  dropped. The idealization rewrote nothing, so nothing is owed for it.
-/
import proofs.«423731_j18683107737694_3_alg».proof.Defs
import proofs.«423731_j18683107737694_3_alg».proof.Proof.Gen.Kernel
import proofs.«423731_j18683107737694_3_alg».proof.Proof.Gen.Kernel.Skeleton
import proofs.«423731_j18683107737694_3_alg».proof.Proof.Gen.Kernel.Launch
import proofs.«423731_j18683107737694_3_alg».proof.Proof.Gen.Kernel.Points
import proofs.«423731_j18683107737694_3_alg».proof.Proof.Gen.Kernel.Frame
import proofs.«423731_j18683107737694_3_alg».proof.Proof.Gen.KernelIdeal
import proofs.«423731_j18683107737694_3_alg».proof.Proof.Gen.KernelIdeal.Skeleton
import proofs.«423731_j18683107737694_3_alg».proof.Proof.Gen.KernelIdeal.Launch
import proofs.«423731_j18683107737694_3_alg».proof.Proof.Gen.KernelIdeal.Points
import proofs.«423731_j18683107737694_3_alg».proof.Proof.Gen.KernelIdeal.Frame
import proofs.«423731_j18683107737694_3_alg».proof.Proof.Gen.ReferenceIdeal
import proofs.«423731_j18683107737694_3_alg».proof.Proof.Gen.Pre_finite_inputs
import proofs.«423731_j18683107737694_3_alg».proof.Proof.Gen.ReferenceIdeal.Run
import proofs.«423731_j18683107737694_3_alg».proof.Proof.Gen.ReferenceIdeal.Read
import proofs.«423731_j18683107737694_3_alg».proof.Proof.KernelValue
import proofs.«423731_j18683107737694_3_alg».proof.Proof.Bridge
import proofs.«423731_j18683107737694_3_alg».proof.Proof.FiniteInputs
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run terminates without a fault with its arguments unchanged: its generated run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end, from memories agreeing on the arguments, with the result array at ONE function of the
    arguments: the kernel's by its run, the reference's last stage equal to it where the weights and the scale are
    finite, which the precondition gives. -/
theorem algebraic : Cert.algebraic_KernelIdeal_ReferenceIdeal := by
  intro m ρ m' ρ' hpre hagree
  refine ⟨_, Cert.KernelIdeal.Value.run m ρ, ?_⟩
  refine (θ_run Cert.ReferenceIdeal.defs _ _).mono (fun _ h c => ⟨(h c).1.trans ?_, (h c).2⟩)
    (Cert.ReferenceIdeal.Value.run (F := Ideal) m' ρ')
  obtain ⟨h1, h2⟩ := Cert.FiniteInputs.real_of_pre _ _ _ _ _ _ (hpre c)
  rw [Cert.ReferenceIdeal.Read.val_main_v59_eq, (hagree c).1, (hagree c).2.1, (hagree c).2.2.1, (hagree c).2.2.2.1,
    (hagree c).2.2.2.2.1, (hagree c).2.2.2.2.2]
  exact (Cert.Bridge.result_eq _ _ _ _ _ _ h1 h2).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
